-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)
  ∧ IdealRules.named_const.Statement Cert.KernelIdeal.κ "inv_tau" .f32 0x40649249#32 ((33554432 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x1 : Shape := ⟨2, ![16384, 1]⟩
abbrev S2048x64 : Shape := ⟨2, ![2048, 64]⟩
abbrev S2048x1 : Shape := ⟨2, ![2048, 1]⟩
abbrev S2048 : Shape := ⟨1, ![2048]⟩
abbrev S1024x64 : Shape := ⟨2, ![1024, 64]⟩
abbrev S2048x128 : Shape := ⟨2, ![2048, 128]⟩
abbrev S128x64 : Shape := ⟨2, ![128, 64]⟩
abbrev S_ : Shape := ⟨0, ![]⟩

abbrev nBuf : Space → Nat
  | .hbm => 10
  | .vmem => 19
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .bf16⟩
  | .hbm, ⟨3, _⟩ => ⟨S16384x64, .bf16⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .bf16⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x1, .f32⟩
  | .local _ .vmem, ⟨9, _⟩ => ⟨S2048x1, .f32⟩
  | .local _ .vmem, ⟨10, _⟩ => ⟨S2048x64, .bf16⟩
  | .local _ .vmem, ⟨11, _⟩ => ⟨S2048x64, .bf16⟩
  | .local _ .vmem, ⟨12, _⟩ => ⟨S1024x64, .bf16⟩
  | .local _ .vmem, ⟨13, _⟩ => ⟨S1024x64, .bf16⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | .local _ .vmem, ⟨18, _⟩ => ⟨S2048x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v93 : BitVec 1 := Scalar.cmpi .eq arg1 c15_i32
  let v94 : BitVec 32 := Scalar.extui v93
  let c0_i32_58 : BitVec 32 := 0#32
  let v95 : BitVec 1 := Scalar.cmpi .ne v94 c0_i32_58
  v95

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  inb_S2048x1_S2048x1_0_0 : ∀ a, (![0, 0] : Fin 2 → Nat) a + S2048x1.size a ≤ S2048x1.size a
  h_S2048x1 : 0 < S2048x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x64_S2048x64 : S2048x64.ShapeCasts S2048x64
  inb_S1024x64_S128x64_0_0 : ∀ a, (![0, 0] : Fin 2 → Nat) a + S128x64.size a ≤ S1024x64.size a
  h_S128x64 : 0 < S128x64.numel
  shapeCasts_S128x64_S128x64 : S128x64.ShapeCasts S128x64
  inb_S1024x64_S128x64_128_0 : ∀ a, (![128, 0] : Fin 2 → Nat) a + S128x64.size a ≤ S1024x64.size a
  inb_S1024x64_S128x64_256_0 : ∀ a, (![256, 0] : Fin 2 → Nat) a + S128x64.size a ≤ S1024x64.size a
  inb_S1024x64_S128x64_384_0 : ∀ a, (![384, 0] : Fin 2 → Nat) a + S128x64.size a ≤ S1024x64.size a
  inb_S1024x64_S128x64_512_0 : ∀ a, (![512, 0] : Fin 2 → Nat) a + S128x64.size a ≤ S1024x64.size a
  inb_S1024x64_S128x64_640_0 : ∀ a, (![640, 0] : Fin 2 → Nat) a + S128x64.size a ≤ S1024x64.size a
  inb_S1024x64_S128x64_768_0 : ∀ a, (![768, 0] : Fin 2 → Nat) a + S128x64.size a ≤ S1024x64.size a
  inb_S1024x64_S128x64_896_0 : ∀ a, (![896, 0] : Fin 2 → Nat) a + S128x64.size a ≤ S1024x64.size a
  reduces_S2048x128_S2048 : S2048x128.Reduces [1] S2048
  shapeCasts_S2048x1_S2048x1 : S2048x1.ShapeCasts S2048x1
  reducesTo_S16384x1_S_d0_1 : S16384x1.ReducesTo [0, 1] S_
  h_S_ : 0 < S_.numel
  dot_S2048x64_S128x64_S2048x128_1_1_0_0_n_n_wf : DotDims.WF S2048x64 S128x64 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .bf16 = 32 ∨ (Rect.block (s := S16384x64) S2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .bf16 = 32 ∨ (Rect.block (s := S16384x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .bf16 = 32 ∨ (Rect.block (s := S16384x64) S1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .f32 = 32 ∨ (Rect.block (s := S16384x1) S2048x1.size (cc1_transform_3 i) (hinb1_3 i)).WholeWords (EltTy.packing .f32)

variable [Facts₀]

def dot_S2048x64_S128x64_S2048x128_1_1_0_0_n_n : DotDims S2048x64 S128x64 S2048x128 where
  lhsContracting := [1]
  rhsContracting := [1]
  lhsNonContracting := [0]
  rhsNonContracting := [0]
  lhsBatch := []
  rhsBatch := []
  wf := dot_S2048x64_S128x64_S2048x128_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x16384 : Shape := ⟨2, ![64, 16384]⟩
abbrev S16384x16384 : Shape := ⟨2, ![16384, 16384]⟩

abbrev nBuf : Space → Nat
  | .hbm => 50
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S64x16384, .f32⟩
  | .hbm, ⟨30, _⟩ => ⟨S16384x16384, .f32⟩
  | .hbm, ⟨31, _⟩ => ⟨S64x16384, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  bcast_S_S16384 : S_.BroadcastsInDim S16384 (![] : Fin 0 → Fin S16384.rank)
  transposes_S16384x64_S64x16384_1_0 : S16384x64.Transposes [1, 0] S64x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K_R0.lean ====
/-
  The first pallas_call (row normalisation), at whatever the TensorCore's buffers hold when it is entered (`V`).
  Each grid point q takes the 2048-row blocks q of the two embedding tables and leaves three blocks: the
  normalised user rows, the sum of the two normalised rows, and the column of positive scores
  exp((un · in) · inv_tau). Nothing is carried from one point to the next: every output block is stored whole,
  as one piece, from the two input blocks.
-/
import proofs.«410407_j27642409517745_3_alg».proof.Proof.Gen.Kernel.Launch
import proofs.«410407_j27642409517745_3_alg».proof.Proof.Gen.Kernel.Skeleton
import proofs.«410407_j27642409517745_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: the block is fetched at every point and the body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rE : Rect S2048x64 := Rect.unit (s := S2048x64) ![0, 0] S2048x64.size inb_S2048x64_S2048x64_0_0
abbrev rP : Rect S2048x1 := Rect.unit (s := S2048x1) ![0, 0] S2048x1.size inb_S2048x1_S2048x1_0_0

/-! ## What the body leaves in each output block -/

/-- The normalised user rows (kept in bf16). -/
def out0_2 (x0 : Vec F S2048x64 .f32) : Vec F S2048x64 .bf16 :=
  View.canon [⟨rE, k0_pay4 (View.ld x0 rE)⟩]
/-- The sum of the two normalised rows (kept in bf16). -/
def out0_3 (x0 x1 : Vec F S2048x64 .f32) : Vec F S2048x64 .bf16 :=
  View.canon [⟨rE, k0_pay5 (View.ld x0 rE) (View.ld x1 rE)⟩]
/-- The positive scores. -/
def out0_4 (x0 x1 : Vec F S2048x64 .f32) : Vec F S2048x1 .f32 :=
  View.canon [⟨rP, k0_pay3 (View.ld x0 rE) (View.ld x1 rE)⟩]

theorem coverE {φ : EltTy} (p0 : Vec F S2048x64 φ) (y : S2048x64.Idx) :
    ∃ pc ∈ ([⟨rE, p0⟩] : List (View.Piece (Elt F) S2048x64 φ)), y ∈ pc.1.set :=
  View.cover_of_tiled [⟨rE, p0⟩] S2048x64.size (by rfl) y
theorem coverP (p0 : Vec F S2048x1 .f32) (y : S2048x1.Idx) :
    ∃ pc ∈ ([⟨rP, p0⟩] : List (View.Piece (Elt F) S2048x1 .f32)), y ∈ pc.1.set :=
  View.cover_of_tiled [⟨rP, p0⟩] S2048x1.size (by rfl) y

/-! ## The body's triple -/

set_option maxHeartbeats 1000000 in
/-- The body on whole staging buffers, the inputs' at `x0`, `x1` and the outputs' at anything, runs to the continuation
    with the inputs' as they were and the three outputs' at `out0_2`, `out0_3`, `out0_4` of the inputs'. -/
theorem sound_kernel0 (c : Dev nD) (E : Set ℕ) (i : grid0.Coords)
    (arg1 : Memref sig .tc .vmem S2048x64 .f32) (harg1 : arg1.IsWhole) (arg2 : Memref sig .tc .vmem S2048x64 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x1 .f32) (harg5 : arg5.IsWhole)
    (x0 x1 : Vec F S2048x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverE _)
  isplitl [H3]
  · iexists _; isplitr
    swap; · iexact H3
    ipureintro
    exact View.read_writes_eq_canon _ _ _ (coverE _)
  iexists _; isplitr
  swap; · iexact H4
  ipureintro
  exact View.read_writes_eq_canon _ _ _ (coverP _)

/-! ## The call's proof data -/

/-- The arrays as the call finds them; after the body at point `t` each input's buffer at its block and each output's at
    its function of the two input blocks; nothing kept between points beyond the scoped rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K_R1Shared.lean ====
/-
  The second pallas_call (the partition sums), what its three kinds of grid point share. The grid is 8 row blocks q
  by 16 key blocks k, k innermost. A 2048 x 128 accumulator lives in scratch across the 16 points of a row block: it
  is cleared at k = 0, each point adds its eight 128-column chunks of exp(scores · inv_tau) into it, and at k = 15 its
  128 lanes are summed and the row block's losses are stored. So a point is of one of three kinds: the first of its
  row block (k = 0), a middle one, or the last (k = 15); the output block is stored only at the last.
-/
import proofs.«410407_j27642409517745_3_alg».proof.Proof.Gen.Kernel.Launch
import proofs.«410407_j27642409517745_3_alg».proof.Proof.Gen.Kernel.Skeleton
import proofs.«410407_j27642409517745_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "this is the first key block of the row block": k = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "this is the last key block of the row block": k = 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch memrefs at a point -/

abbrev VO1_3 : View sig .tc .vmem S2048x1 .f32 := (Memref.whole cc1_stg3_0 : Memref sig .tc .vmem S2048x1 .f32).view
abbrev ms1_0 (t : Fin cfg1.N) : Memref sig .tc .vmem S2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x128 .f32 := Memref.whole cc1_scratch0
abbrev VS1 : View sig .tc .vmem S2048x128 .f32 := scM1.view

/-- The scoped rest of the second call, with the accumulator split out as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Fr

end
-- ==== Proof.K_R1RunA.lean ====
/-
  The body of the second call at the FIRST point of a row block (k = 0): the accumulator is cleared, then the eight chunks are added; nothing is stored into the output block.
-/
import proofs.«410407_j27642409517745_3_alg».proof.Proof.K_R1Shared

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator at a point of this kind, with the
    body's triple on whole buffers: the three input blocks handed back as found, the output block untouched, the
    accumulator taken at anything and left with its pieces written. -/
noncomputable def kernelRun1_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) :
    Σ' (L3 : List (View.Piece (Elt F) S2048x1 .f32)), { LS : List (View.Piece (Elt F) S2048x128 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.K_R1RunB.lean ====
/-
  The body of the second call at a MIDDLE point of a row block (0 < k < 15): the eight chunks are added to what the point before left in the accumulator; nothing is stored into the output block.
-/
import proofs.«410407_j27642409517745_3_alg».proof.Proof.K_R1RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator at a point of this kind, with the
    body's triple on whole buffers: the three input blocks handed back as found, the output block untouched, the
    accumulator taken at what the point before left and left with its pieces written. -/
noncomputable def kernelRun1_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) :
    Σ' (L3 : List (View.Piece (Elt F) S2048x1 .f32)), { LS : List (View.Piece (Elt F) S2048x128 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.K_R1RunC.lean ====
/-
  The body of the second call at the LAST point of a row block (k = 15): the eight chunks are added to what the point before left in the accumulator, then its lanes are summed and the row block's losses are stored into the output block.
-/
import proofs.«410407_j27642409517745_3_alg».proof.Proof.K_R1RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator at a point of this kind, with the
    body's triple on whole buffers: the three input blocks handed back as found, the output block with its pieces written, the
    accumulator taken at what the point before left and left with its pieces written. -/
noncomputable def kernelRun1_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) :
    Σ' (L3 : List (View.Piece (Elt F) S2048x1 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.K_R1.lean ====
/-
  The second pallas_call (the partition sums), at whatever the TensorCore's buffers hold when it is entered (`V`):
  what the output block and the accumulator hold after each grid point, by recursion on the point — a first point of
  a row block starts the accumulator afresh, every other point adds to what the point before left —, the invariant
  that carries the accumulator from one point to the next, and the body's obligation at every point.
-/
import proofs.«410407_j27642409517745_3_alg».proof.Proof.K_R1RunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves, from the pieces its run found -/

/-- What a point of this kind leaves in the output block (nothing is stored: a placeholder nobody reads, the block being neither written back nor read at the next point). -/
def out1_A_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) : Vec F S2048x1 .f32 :=
  VO1_3.read (Elt F) (VO1_3.writes (Elt F) VO1_3.junk (kernelRun1_A c i arg2 harg2 arg3 harg3 arg4 harg4 arg5 harg5 arg6 harg6 hc0 hc1 x0 x1 x2).1)

/-- The stores into the accumulator at a point of this kind cover it. -/
theorem scover1_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What a point of this kind leaves in the accumulator. -/
def sout1_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) : Vec F S2048x128 .f32 :=
  VS1.read (Elt F) (VS1.writes (Elt F) VS1.junk (kernelRun1_A c i arg2 harg2 arg3 harg3 arg4 harg4 arg5 harg5 arg6 harg6 hc0 hc1 x0 x1 x2).2.1)

/-- What a point of this kind leaves in the output block (nothing is stored: a placeholder nobody reads, the block being neither written back nor read at the next point). -/
def out1_B_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) : Vec F S2048x1 .f32 :=
  VO1_3.read (Elt F) (VO1_3.writes (Elt F) VO1_3.junk (kernelRun1_B c i arg2 harg2 arg3 harg3 arg4 harg4 arg5 harg5 arg6 harg6 hc0 hc1 x0 x1 x2 xs).1)

/-- The stores into the accumulator at a point of this kind cover it. -/
theorem scover1_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) (y : S2048x128.Idx) :
    ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S2048x128.size (by sl_kernel_rfl) y

/-- What a point of this kind leaves in the accumulator. -/
def sout1_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) : Vec F S2048x128 .f32 :=
  VS1.read (Elt F) (VS1.writes (Elt F) VS1.junk (kernelRun1_B c i arg2 harg2 arg3 harg3 arg4 harg4 arg5 harg5 arg6 harg6 hc0 hc1 x0 x1 x2 xs).2.1)

/-- At a last point the stores into the output block cover it. -/
theorem cover1_C_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) (y : S2048x1.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S2048x1.size (by sl_kernel_rfl) y

/-- What a point of this kind leaves in the output block. -/
def out1_C_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) : Vec F S2048x1 .f32 :=
  VO1_3.read (Elt F) (VO1_3.writes (Elt F) VO1_3.junk (kernelRun1_C c i arg2 harg2 arg3 harg3 arg4 harg4 arg5 harg5 arg6 harg6 hc0 hc1 x0 x1 x2 xs).1)

/-- The stores into the accumulator at a point of this kind cover it. -/
theorem scover1_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) (y : S2048x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S2048x128.size (by sl_kernel_rfl) y

/-- What a point of this kind leaves in the accumulator. -/
def sout1_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) : Vec F S2048x128 .f32 :=
  VS1.read (Elt F) (VS1.writes (Elt F) VS1.junk (kernelRun1_C c i arg2 harg2 arg3 harg3 arg4 harg4 arg5 harg5 arg6 harg6 hc0 hc1 x0 x1 x2 xs).2.1)

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- After the body at position `n`: (the output block, the accumulator). The kind of the point is read off `n mod 16`;
    a point that is not the first of its row block takes the accumulator the point before left. -/
def outsAt1 (c : Dev nD) : (n : ℕ) → n < cfg1.N → Vec F S2048x1 .f32 × Vec F S2048x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point, the scoped rest at anything; afterwards the same with the accumulator at
    what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c (n - 1) (by omega)).2)) ∗ (∃ r, prngReg c r)) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

set_option maxHeartbeats 4800000 in
/-- The body at any point: the inputs' buffers hold their blocks; the point's kind is read off `t mod 16`; the invariant
    hands the body the accumulator at what the point before left (at anything at the very first point) and takes it
    back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [(leaves_in V c t).1, (leaves_in V c t).2.1, (leaves_in V c t).2.2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: what the accumulator holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨HA0, HA1, HA2, HA3, HA4, HA5, HA6, HA7, HA8, HA9, HS0⟩, Hg⟩
  isplitl [HA0 HA1 HA2 HA3 HA4 HA5 HA6 HA7 HA8 HA9 HS0]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    iexists _; iexact HS0
  iexact Hg

end Cert.Kernel.Fr

end
-- ==== Proof.K_Run.lean ====
/-
  The whole program: the two pallas_calls one after the other, then the mean on the host. Between items the
  TensorCore's unscoped buffers hold: at launch the memory; after the first call its three result arrays at what its
  write-backs leave; after the second call the loss column likewise; after the host lines their results. Every run
  ends with the mean in its buffer at that fold's value and the two argument tables as launched.
-/
import proofs.«410407_j27642409517745_3_alg».proof.Proof.K_R0
import proofs.«410407_j27642409517745_3_alg».proof.Proof.K_R1

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the first call: its arrays at what its write-backs leave, every other buffer as before. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the second call. -/
def W2 (c : Dev nD) : Valuation τ sig (Elt F) :=
  Pipeline.withArrays spec1 c (W1 m c) fun w => (dat1 (Vr1 m) c).arrAt w cfg1.N
theorem W2_arr (c : Dev nD) (w : Fin cfg1.W) :
    W2 m c (Proc.devRef .tc (Pipeline.arrRef spec1 w)) = (dat1 (Vr1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vr2 : (c : Dev nD) → (b : Ref sig .tc) → Buf (Elt F) ((c : Thread nD τ).loc b) := fun c b => W2 m c b
theorem hF1 (c : Dev nD) (w : Fin cfg1.W) : (dat1 (Vr1 m) c).arrAt w cfg1.N = Vr2 m c (Pipeline.arrRef spec1 w) :=
  (W2_arr m c w).symm
theorem hrest1 (c : Dev nD) : ∀ b, b ∉ Finset.univ.image (Pipeline.arrRef spec1) → Vr2 m c b = Vr1 m c b :=
  fun b hb => W2_of_ne m c b fun w e => hb (Finset.mem_image.mpr ⟨w, Finset.mem_univ _, e⟩)

/-- After the host lines. -/
abbrev W3 : Dev nD → Valuation τ sig (Elt F) := fun c => StableHlo.after hostOps2 (W2 m c)

/-! ### The argument tables end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := (W1_arr m c 1).trans (((dat0 (Vr0 m) c).arrAt_in 1 rfl _).trans (A_eq0 (Vr0 m) c 1))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers: the random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The last boundary's state regrouped: the buffers and the register on one side, the (empty) debt on the other. -/
theorem tail_assoc (c : Dev nD) :
    (iprop(StableHlo.held (c : Thread nD τ) (Pipeline.ucRefs τ sig) (W3 m c) ∗ R c) : sProp 𝕄)
      ⊢ iprop(Tₙ m c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The calls as segments -/

set_option backward.isDefEq.respectTransparency.types false in
/-- The first call over the thread state: entered from every unscoped buffer at `W0`, left at `W1`. Its arrays are
    split out of the unscoped buffers and put back at what the call leaves; the random-number register goes into the
    call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W1`, left at `W2`. Its arrays are
    split out of the unscoped buffers and put back at what the call leaves; the random-number register goes into the
    call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)) ]
theorem main_run (c : Dev nD) : main (F := F) c = Pipeline.Seg.run (segs m) := (main_chain c).trans (by chain_rfl)

set_option backward.isDefEq.respectTransparency.types false in
/-- Every weakly fair execution of the program from memory `m` with zero counters terminates, nothing faulting, with
    the mean's buffer at the last boundary's contents and the two argument tables as launched. -/
theorem run_main : θ_run defs (onTc (τ := τ) (main (F := F))) ⟨m, fun _ => 0, ρ⟩ (fun r => ∀ c : Dev nD,
      r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => tail_assoc m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v3 (by decide)),
       (h c _ (mem_uc main_arg0 (by decide))).trans (W3_main_arg0 m c),
       (h c _ (mem_uc main_arg1 (by decide))).trans (W3_main_arg1 m c)⟩)

/-- The frame: the argument tables end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.KI_R0.lean ====
/-
  The first pallas_call (row normalisation), at whatever the TensorCore's buffers hold when it is entered (`V`).
  Each grid point q takes the 2048-row blocks q of the two embedding tables and leaves three blocks: the
  normalised user rows, the sum of the two normalised rows, and the column of positive scores
  exp((un · in) · inv_tau). Nothing is carried from one point to the next: every output block is stored whole,
  as one piece, from the two input blocks.
-/
import proofs.«410407_j27642409517745_3_alg».proof.Proof.Gen.KernelIdeal.Launch
import proofs.«410407_j27642409517745_3_alg».proof.Proof.Gen.KernelIdeal.Skeleton
import proofs.«410407_j27642409517745_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: the block is fetched at every point and the body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rE : Rect S2048x64 := Rect.unit (s := S2048x64) ![0, 0] S2048x64.size inb_S2048x64_S2048x64_0_0
abbrev rP : Rect S2048x1 := Rect.unit (s := S2048x1) ![0, 0] S2048x1.size inb_S2048x1_S2048x1_0_0

/-! ## What the body leaves in each output block -/

/-- The normalised user rows (kept in bf16). -/
def out0_2 (x0 : Vec F S2048x64 .f32) : Vec F S2048x64 .bf16 :=
  View.canon [⟨rE, k0_pay4 (View.ld x0 rE)⟩]
/-- The sum of the two normalised rows (kept in bf16). -/
def out0_3 (x0 x1 : Vec F S2048x64 .f32) : Vec F S2048x64 .bf16 :=
  View.canon [⟨rE, k0_pay5 (View.ld x0 rE) (View.ld x1 rE)⟩]
/-- The positive scores. -/
def out0_4 (x0 x1 : Vec F S2048x64 .f32) : Vec F S2048x1 .f32 :=
  View.canon [⟨rP, k0_pay3 (View.ld x0 rE) (View.ld x1 rE)⟩]

theorem coverE {φ : EltTy} (p0 : Vec F S2048x64 φ) (y : S2048x64.Idx) :
    ∃ pc ∈ ([⟨rE, p0⟩] : List (View.Piece (Elt F) S2048x64 φ)), y ∈ pc.1.set :=
  View.cover_of_tiled [⟨rE, p0⟩] S2048x64.size (by rfl) y
theorem coverP (p0 : Vec F S2048x1 .f32) (y : S2048x1.Idx) :
    ∃ pc ∈ ([⟨rP, p0⟩] : List (View.Piece (Elt F) S2048x1 .f32)), y ∈ pc.1.set :=
  View.cover_of_tiled [⟨rP, p0⟩] S2048x1.size (by rfl) y

/-! ## The body's triple -/

set_option maxHeartbeats 1000000 in
/-- The body on whole staging buffers, the inputs' at `x0`, `x1` and the outputs' at anything, runs to the continuation
    with the inputs' as they were and the three outputs' at `out0_2`, `out0_3`, `out0_4` of the inputs'. -/
theorem sound_kernel0 (c : Dev nD) (E : Set ℕ) (i : grid0.Coords)
    (arg1 : Memref sig .tc .vmem S2048x64 .f32) (harg1 : arg1.IsWhole) (arg2 : Memref sig .tc .vmem S2048x64 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x1 .f32) (harg5 : arg5.IsWhole)
    (x0 x1 : Vec F S2048x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverE _)
  isplitl [H3]
  · iexists _; isplitr
    swap; · iexact H3
    ipureintro
    exact View.read_writes_eq_canon _ _ _ (coverE _)
  iexists _; isplitr
  swap; · iexact H4
  ipureintro
  exact View.read_writes_eq_canon _ _ _ (coverP _)

/-! ## The call's proof data -/

/-- The arrays as the call finds them; after the body at point `t` each input's buffer at its block and each output's at
    its function of the two input blocks; nothing kept between points beyond the scoped rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI_R1Shared.lean ====
/-
  The second pallas_call (the partition sums), what its three kinds of grid point share. The grid is 8 row blocks q
  by 16 key blocks k, k innermost. A 2048 x 128 accumulator lives in scratch across the 16 points of a row block: it
  is cleared at k = 0, each point adds its eight 128-column chunks of exp(scores · inv_tau) into it, and at k = 15 its
  128 lanes are summed and the row block's losses are stored. So a point is of one of three kinds: the first of its
  row block (k = 0), a middle one, or the last (k = 15); the output block is stored only at the last.
-/
import proofs.«410407_j27642409517745_3_alg».proof.Proof.Gen.KernelIdeal.Launch
import proofs.«410407_j27642409517745_3_alg».proof.Proof.Gen.KernelIdeal.Skeleton
import proofs.«410407_j27642409517745_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two branch conditions, decided over the grid -/

/-- "this is the first key block of the row block": k = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "this is the last key block of the row block": k = 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch memrefs at a point -/

abbrev VO1_3 : View sig .tc .vmem S2048x1 .f32 := (Memref.whole cc1_stg3_0 : Memref sig .tc .vmem S2048x1 .f32).view
abbrev ms1_0 (t : Fin cfg1.N) : Memref sig .tc .vmem S2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x128 .f32 := Memref.whole cc1_scratch0
abbrev VS1 : View sig .tc .vmem S2048x128 .f32 := scM1.view

/-- The scoped rest of the second call, with the accumulator split out as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Fr

end
-- ==== Proof.KI_R1RunA.lean ====
/-
  The body of the second call at the FIRST point of a row block (k = 0): the accumulator is cleared, then the eight chunks are added; nothing is stored into the output block.
-/
import proofs.«410407_j27642409517745_3_alg».proof.Proof.KI_R1Shared

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output block and in the accumulator at a point of this kind, with the
    body's triple on whole buffers: the three input blocks handed back as found, the output block untouched, the
    accumulator taken at anything and left with its pieces written. -/
noncomputable def kernelRun1_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) :
    Σ' (L3 : List (View.Piece (Elt F) S2048x1 .f32)), { LS : List (View.Piece (Elt F) S2048x128 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI_R1RunB.lean ====
/-
  The body of the second call at a MIDDLE point of a row block (0 < k < 15): the eight chunks are added to what the point before left in the accumulator; nothing is stored into the output block.
-/
import proofs.«410407_j27642409517745_3_alg».proof.Proof.KI_R1RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output block and in the accumulator at a point of this kind, with the
    body's triple on whole buffers: the three input blocks handed back as found, the output block untouched, the
    accumulator taken at what the point before left and left with its pieces written. -/
noncomputable def kernelRun1_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) :
    Σ' (L3 : List (View.Piece (Elt F) S2048x1 .f32)), { LS : List (View.Piece (Elt F) S2048x128 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI_R1RunC.lean ====
/-
  The body of the second call at the LAST point of a row block (k = 15): the eight chunks are added to what the point before left in the accumulator, then its lanes are summed and the row block's losses are stored into the output block.
-/
import proofs.«410407_j27642409517745_3_alg».proof.Proof.KI_R1RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output block and in the accumulator at a point of this kind, with the
    body's triple on whole buffers: the three input blocks handed back as found, the output block with its pieces written, the
    accumulator taken at what the point before left and left with its pieces written. -/
noncomputable def kernelRun1_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) :
    Σ' (L3 : List (View.Piece (Elt F) S2048x1 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.KI_R1.lean ====
/-
  The second pallas_call (the partition sums), at whatever the TensorCore's buffers hold when it is entered (`V`):
  what the output block and the accumulator hold after each grid point, by recursion on the point — a first point of
  a row block starts the accumulator afresh, every other point adds to what the point before left —, the invariant
  that carries the accumulator from one point to the next, and the body's obligation at every point.
-/
import proofs.«410407_j27642409517745_3_alg».proof.Proof.KI_R1RunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each kind of point leaves, from the pieces its run found -/

/-- What a point of this kind leaves in the output block (nothing is stored: a placeholder nobody reads, the block being neither written back nor read at the next point). -/
def out1_A_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) : Vec F S2048x1 .f32 :=
  VO1_3.read (Elt F) (VO1_3.writes (Elt F) VO1_3.junk (kernelRun1_A c i arg2 harg2 arg3 harg3 arg4 harg4 arg5 harg5 arg6 harg6 hc0 hc1 x0 x1 x2).1)

/-- The stores into the accumulator at a point of this kind cover it. -/
theorem scover1_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What a point of this kind leaves in the accumulator. -/
def sout1_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) : Vec F S2048x128 .f32 :=
  VS1.read (Elt F) (VS1.writes (Elt F) VS1.junk (kernelRun1_A c i arg2 harg2 arg3 harg3 arg4 harg4 arg5 harg5 arg6 harg6 hc0 hc1 x0 x1 x2).2.1)

/-- What a point of this kind leaves in the output block (nothing is stored: a placeholder nobody reads, the block being neither written back nor read at the next point). -/
def out1_B_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) : Vec F S2048x1 .f32 :=
  VO1_3.read (Elt F) (VO1_3.writes (Elt F) VO1_3.junk (kernelRun1_B c i arg2 harg2 arg3 harg3 arg4 harg4 arg5 harg5 arg6 harg6 hc0 hc1 x0 x1 x2 xs).1)

/-- The stores into the accumulator at a point of this kind cover it. -/
theorem scover1_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) (y : S2048x128.Idx) :
    ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S2048x128.size (by sl_kernel_rfl) y

/-- What a point of this kind leaves in the accumulator. -/
def sout1_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) : Vec F S2048x128 .f32 :=
  VS1.read (Elt F) (VS1.writes (Elt F) VS1.junk (kernelRun1_B c i arg2 harg2 arg3 harg3 arg4 harg4 arg5 harg5 arg6 harg6 hc0 hc1 x0 x1 x2 xs).2.1)

/-- At a last point the stores into the output block cover it. -/
theorem cover1_C_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) (y : S2048x1.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S2048x1.size (by sl_kernel_rfl) y

/-- What a point of this kind leaves in the output block. -/
def out1_C_3 (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) : Vec F S2048x1 .f32 :=
  VO1_3.read (Elt F) (VO1_3.writes (Elt F) VO1_3.junk (kernelRun1_C c i arg2 harg2 arg3 harg3 arg4 harg4 arg5 harg5 arg6 harg6 hc0 hc1 x0 x1 x2 xs).1)

/-- The stores into the accumulator at a point of this kind cover it. -/
theorem scover1_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) (y : S2048x128.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S2048x128.size (by sl_kernel_rfl) y

/-- What a point of this kind leaves in the accumulator. -/
def sout1_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) : Vec F S2048x128 .f32 :=
  VS1.read (Elt F) (VS1.writes (Elt F) VS1.junk (kernelRun1_C c i arg2 harg2 arg3 harg3 arg4 harg4 arg5 harg5 arg6 harg6 hc0 hc1 x0 x1 x2 xs).2.1)

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- After the body at position `n`: (the output block, the accumulator). The kind of the point is read off `n mod 16`;
    a point that is not the first of its row block takes the accumulator the point before left. -/
def outsAt1 (c : Dev nD) : (n : ℕ) → n < cfg1.N → Vec F S2048x1 .f32 × Vec F S2048x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point, the scoped rest at anything; afterwards the same with the accumulator at
    what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c (n - 1) (by omega)).2)) ∗ (∃ r, prngReg c r)) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t) := by
  refine ⟨?_, ?_, ?_⟩
  · unfold Dat.leavesExact; rw [liveAt1_0 t, after1_0]
  · unfold Dat.leavesExact; rw [liveAt1_1 t, after1_1]
  · unfold Dat.leavesExact; rw [liveAt1_2 t, after1_2]

set_option maxHeartbeats 4800000 in
/-- The body at any point: the inputs' buffers hold their blocks; the point's kind is read off `t mod 16`; the invariant
    hands the body the accumulator at what the point before left (at anything at the very first point) and takes it
    back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [(leaves_in V c t).1, (leaves_in V c t).2.1, (leaves_in V c t).2.2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨HA0, HA1, HA2, HA3, HA4, HA5, HA6, HA7, HA8, HA9, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA0 HA1 HA2 HA3 HA4 HA5 HA6 HA7 HA8 HA9 HS0 Hg]
      · isplitl [HA0 HA1 HA2 HA3 HA4 HA5 HA6 HA7 HA8 HA9 HS0]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: what the accumulator holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨HA0, HA1, HA2, HA3, HA4, HA5, HA6, HA7, HA8, HA9, HS0⟩, Hg⟩
  isplitl [HA0 HA1 HA2 HA3 HA4 HA5 HA6 HA7 HA8 HA9 HS0]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    iexists _; iexact HS0
  iexact Hg

end Cert.KernelIdeal.Fr

end
-- ==== Proof.KI_Run.lean ====
/-
  The whole program: the two pallas_calls one after the other, then the mean on the host. Between items the
  TensorCore's unscoped buffers hold: at launch the memory; after the first call its three result arrays at what its
  write-backs leave; after the second call the loss column likewise; after the host lines their results. Every run
  ends with the mean in its buffer at that fold's value and the two argument tables as launched.
-/
import proofs.«410407_j27642409517745_3_alg».proof.Proof.KI_R0
import proofs.«410407_j27642409517745_3_alg».proof.Proof.KI_R1

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the first call: its arrays at what its write-backs leave, every other buffer as before. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the second call. -/
def W2 (c : Dev nD) : Valuation τ sig (Elt F) :=
  Pipeline.withArrays spec1 c (W1 m c) fun w => (dat1 (Vr1 m) c).arrAt w cfg1.N
theorem W2_arr (c : Dev nD) (w : Fin cfg1.W) :
    W2 m c (Proc.devRef .tc (Pipeline.arrRef spec1 w)) = (dat1 (Vr1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vr2 : (c : Dev nD) → (b : Ref sig .tc) → Buf (Elt F) ((c : Thread nD τ).loc b) := fun c b => W2 m c b
theorem hF1 (c : Dev nD) (w : Fin cfg1.W) : (dat1 (Vr1 m) c).arrAt w cfg1.N = Vr2 m c (Pipeline.arrRef spec1 w) :=
  (W2_arr m c w).symm
theorem hrest1 (c : Dev nD) : ∀ b, b ∉ Finset.univ.image (Pipeline.arrRef spec1) → Vr2 m c b = Vr1 m c b :=
  fun b hb => W2_of_ne m c b fun w e => hb (Finset.mem_image.mpr ⟨w, Finset.mem_univ _, e⟩)

/-- After the host lines. -/
abbrev W3 : Dev nD → Valuation τ sig (Elt F) := fun c => StableHlo.after hostOps2 (W2 m c)

/-! ### The argument tables end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := (W1_arr m c 1).trans (((dat0 (Vr0 m) c).arrAt_in 1 rfl _).trans (A_eq0 (Vr0 m) c 1))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers: the random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The last boundary's state regrouped: the buffers and the register on one side, the (empty) debt on the other. -/
theorem tail_assoc (c : Dev nD) :
    (iprop(StableHlo.held (c : Thread nD τ) (Pipeline.ucRefs τ sig) (W3 m c) ∗ R c) : sProp 𝕄)
      ⊢ iprop(Tₙ m c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The calls as segments -/

set_option backward.isDefEq.respectTransparency.types false in
/-- The first call over the thread state: entered from every unscoped buffer at `W0`, left at `W1`. Its arrays are
    split out of the unscoped buffers and put back at what the call leaves; the random-number register goes into the
    call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W1`, left at `W2`. Its arrays are
    split out of the unscoped buffers and put back at what the call leaves; the random-number register goes into the
    call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)) ]
theorem main_run (c : Dev nD) : main (F := F) c = Pipeline.Seg.run (segs m) := (main_chain c).trans (by chain_rfl)

set_option backward.isDefEq.respectTransparency.types false in
/-- Every weakly fair execution of the program from memory `m` with zero counters terminates, nothing faulting, with
    the mean's buffer at the last boundary's contents and the two argument tables as launched. -/
theorem run_main : θ_run defs (onTc (τ := τ) (main (F := F))) ⟨m, fun _ => 0, ρ⟩ (fun r => ∀ c : Dev nD,
      r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => tail_assoc m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v3 (by decide)),
       (h c _ (mem_uc main_arg0 (by decide))).trans (W3_main_arg0 m c),
       (h c _ (mem_uc main_arg1 (by decide))).trans (W3_main_arg1 m c)⟩)

/-- The frame: the argument tables end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.Spec.lean ====
/-
  The loss both programs compute, as one function of the two embedding tables over the extended reals.
  A table row is scaled to unit length, x / max(‖x‖, ε₁₂); the positive score of row q is exp((û_q · î_q) / τ); the
  partition sum of row q adds exp((û_q · î_k + û_q · û_k) / τ) over every row k; the loss of row q is
  −log(pos_q / (tot_q + ε₈)); the result is the mean over the 16384 rows.
-/
import Idealize.ShloMosaic.PureOps.Ideal
import Idealize.ShloMosaic.Lib.ValueIdx
import Mathlib.Algebra.BigOperators.Group.Finset.Basic

noncomputable section

namespace Cert.Spec

open Idealize.ShloMosaic

/-- A 16384 × 64 table of extended reals. -/
abbrev Tbl := Fin 16384 → Fin 64 → EReal

/-- The guard under the norm, the guard under the logarithm's quotient, the temperature and the row count: the
    values the two programs' shared f32 words denote. -/
def eps12 : EReal := Ideal.ofBits .f32 0x2B8CBCCC#32
def eps8 : EReal := Ideal.ofBits .f32 0x322BCC77#32
def tau : EReal := Ideal.ofBits .f32 0x3E8F5C29#32
def rows : EReal := Ideal.ofBits .f32 0x46800000#32

/-- The guarded Euclidean norm of row `r`. -/
def nrm (X : Tbl) (r : Fin 16384) : EReal := max (Ideal.sqrt (∑ d, X r d * X r d)) eps12
/-- Row `r` scaled to unit length. -/
def dir (X : Tbl) (r : Fin 16384) (d : Fin 64) : EReal := Ideal.div (X r d) (nrm X r)
/-- The positive score of row `q`. -/
def pos (U I : Tbl) (q : Fin 16384) : EReal := Ideal.exp (Ideal.div (∑ d, dir U q d * dir I q d) tau)
/-- The partition sum of row `q`. -/
def tot (U I : Tbl) (q : Fin 16384) : EReal :=
  ∑ k, Ideal.exp (Ideal.div ((∑ d, dir U q d * dir I k d) + ∑ d, dir U q d * dir U k d) tau)
/-- The loss of row `q`. -/
def loss (U I : Tbl) (q : Fin 16384) : EReal := - Ideal.log (Ideal.div (pos U I q) (tot U I q + eps8))
/-- The mean loss. -/
def result (U I : Tbl) : EReal := Ideal.div (∑ q, loss U I q) rows

/-- A rank-2 array read as a table. -/
def tbl (x : (⟨2, ![16384, 64]⟩ : Shape).Idx → EReal) : Tbl := fun r d => x (ValueIdx.ix2 r d)

end Cert.Spec

end
-- ==== Proof.Law.lean ====
/-
  The kernel's arrangement of the loss, and that it is the same number.
  The kernel multiplies by the reciprocal temperature where the specification divides by the temperature; it folds the
  two score matrices û·îᵀ and û·ûᵀ into one product against ŵ = û + î; and it adds the 16384 terms of a row's
  partition sum in another order: sixteen key blocks of eight 128-column chunks, accumulated lane by lane, the 128
  lanes summed at the end. On finite tables every entry of û, î is a real number, so the product distributes over the
  sum ŵ, and a finite sum of extended reals may be taken in any order.
-/
import proofs.«410407_j27642409517745_3_alg».proof.Proof.Spec
import Mathlib.Data.EReal.Operations
import Mathlib.Algebra.BigOperators.Fin
import Mathlib.Data.Fintype.BigOperators
import Mathlib.Algebra.Order.BigOperators.Group.Finset

noncomputable section

namespace Cert.Law

open Idealize.ShloMosaic Cert.Spec

/-- The reciprocal temperature the kernel multiplies by: exactly one over the temperature's f32 value. -/
def kappa : EReal := ((33554432 / 9395241 : ℝ) : EReal)

/-- The key-side operand of the folded product. -/
def wsum (U I : Tbl) (k : Fin 16384) (d : Fin 64) : EReal := dir U k d + dir I k d

/-- The positive score, by the reciprocal. -/
def kpos (U I : Tbl) (q : Fin 16384) : EReal := Ideal.exp ((∑ d, dir U q d * dir I q d) * kappa)

/-- One term of the partition sum, from the folded product. -/
def kterm (U I : Tbl) (q k : Fin 16384) : EReal := Ideal.exp ((∑ d, dir U q d * wsum U I k d) * kappa)

/-- Column `l` of chunk `c` of key block `kb`. -/
def col (kb : Fin 16) (c : Fin 8) (l : Fin 128) : Fin 16384 := ⟨kb.val * 1024 + c.val * 128 + l.val, by omega⟩

/-- One key block's eight chunk terms added, in order, to what the accumulator's lane `l` held. -/
def accStep (U I : Tbl) (q : Fin 16384) (l : Fin 128) (kb : Fin 16) (a : EReal) : EReal :=
  a + kterm U I q (col kb 0 l) + kterm U I q (col kb 1 l) + kterm U I q (col kb 2 l) + kterm U I q (col kb 3 l)
    + kterm U I q (col kb 4 l) + kterm U I q (col kb 5 l) + kterm U I q (col kb 6 l) + kterm U I q (col kb 7 l)

/-- Lane `l` of row `q`'s accumulator after the first `n` key blocks (cleared before the first). -/
def acc (U I : Tbl) (q : Fin 16384) (l : Fin 128) : ℕ → EReal
  | 0 => 0
  | n + 1 => if h : n < 16 then accStep U I q l ⟨n, h⟩ (acc U I q l n) else acc U I q l n

/-- The partition sum as the kernel forms it: the lanes of the full accumulator added. -/
def ktot (U I : Tbl) (q : Fin 16384) : EReal := ∑ l : Fin 128, acc U I q l 16

/-- The loss of a row as the kernel forms it. -/
def kloss (U I : Tbl) (q : Fin 16384) : EReal := 0 - Ideal.log (Ideal.div (kpos U I q) (ktot U I q + eps8))

/-- The mean loss as the kernel forms it. -/
def kresult (U I : Tbl) : EReal := Ideal.div (∑ q, kloss U I q) rows

/-! ## The two float words whose values matter -/

/-- The temperature's f32 word denotes 9395241 / 2²⁵. -/
theorem tau_val : tau = ((9395241 / 33554432 : ℝ) : EReal) := by
  unfold tau
  simp [Ideal.ofBits, Ideal.ieee, -EReal.coe_mul]; norm_num

/-- The norm guard's f32 word denotes a positive real. -/
theorem eps12_pos : ∃ e : ℝ, 0 < e ∧ eps12 = (e : EReal) := by
  refine ⟨9223372 / 9223372036854775808, by norm_num, ?_⟩
  unfold eps12
  simp [Ideal.ofBits, Ideal.ieee, -EReal.coe_mul]; norm_num

/-- Multiplying by the reciprocal temperature is dividing by the temperature, at the infinities too. -/
theorem mul_kappa (x : EReal) : x * kappa = Ideal.div x tau := by
  have h : (1 / (9395241 / 33554432 : ℝ)) = 33554432 / 9395241 := by norm_num
  rw [tau_val, Ideal.div_coe (by norm_num) x, h]
  rfl

/-! ## Reals inside the extended reals -/

theorem max_coe (a b : ℝ) : max (a : EReal) (b : EReal) = ((max a b : ℝ) : EReal) :=
  (EReal.coe_strictMono.monotone.map_max).symm

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum of two reals (the two products written in the other order). -/
theorem mul_add_coe (a b c : ℝ) :
    (a : EReal) * ((b : EReal) + (c : EReal)) = (a : EReal) * (c : EReal) + (a : EReal) * (b : EReal) := by
  rw [← EReal.coe_add, ← EReal.coe_mul, ← EReal.coe_mul, ← EReal.coe_mul, ← EReal.coe_add, mul_add, add_comm]

/-! ## On a finite table the guarded norm is a positive real and every unit-row entry is a real -/

theorem nrm_real (X : Tbl) (hX : ∀ r d, ∃ x : ℝ, X r d = (x : EReal)) (r : Fin 16384) :
    ∃ n : ℝ, 0 < n ∧ nrm X r = (n : EReal) := by
  choose x hx using hX
  obtain ⟨e, he, hE⟩ := eps12_pos
  have hs : (∑ d, X r d * X r d) = ((∑ d, x r d * x r d : ℝ) : EReal) := by
    rw [coe_sum]
    exact Finset.sum_congr rfl fun d _ => by rw [hx r d, EReal.coe_mul]
  have h0 : ¬ (∑ d, x r d * x r d) < 0 := not_lt.2 (Finset.sum_nonneg fun d _ => mul_self_nonneg _)
  refine ⟨max (Real.sqrt (∑ d, x r d * x r d)) e, lt_max_of_lt_right he, ?_⟩
  unfold nrm
  rw [hs, Ideal.sqrt_coe, if_neg h0, hE, max_coe]

theorem dir_real (X : Tbl) (hX : ∀ r d, ∃ x : ℝ, X r d = (x : EReal)) (r : Fin 16384) (d : Fin 64) :
    ∃ y : ℝ, dir X r d = (y : EReal) := by
  obtain ⟨n, hn, hN⟩ := nrm_real X hX r
  obtain ⟨x, hx⟩ := hX r d
  refine ⟨x * (1 / n), ?_⟩
  unfold dir
  rw [hN, hx, Ideal.div_coe hn.ne', EReal.coe_mul]

/-! ## The folded product is the sum of the two scores -/

theorem folded (U I : Tbl) (hU : ∀ r d, ∃ x : ℝ, U r d = (x : EReal)) (hI : ∀ r d, ∃ x : ℝ, I r d = (x : EReal))
    (q k : Fin 16384) :
    ∑ d, dir U q d * wsum U I k d = (∑ d, dir U q d * dir I k d) + ∑ d, dir U q d * dir U k d := by
  rw [← Finset.sum_add_distrib]
  refine Finset.sum_congr rfl fun d _ => ?_
  obtain ⟨a, ha⟩ := dir_real U hU q d
  obtain ⟨b, hb⟩ := dir_real U hU k d
  obtain ⟨c, hc⟩ := dir_real I hI k d
  unfold wsum
  rw [hc, hb, ha]
  exact mul_add_coe a b c

theorem kterm_eq (U I : Tbl) (hU : ∀ r d, ∃ x : ℝ, U r d = (x : EReal)) (hI : ∀ r d, ∃ x : ℝ, I r d = (x : EReal))
    (q k : Fin 16384) :
    kterm U I q k
      = Ideal.exp (Ideal.div ((∑ d, dir U q d * dir I k d) + ∑ d, dir U q d * dir U k d) tau) := by
  unfold kterm
  rw [folded U I hU hI q k, mul_kappa]

theorem kpos_eq (U I : Tbl) (q : Fin 16384) : kpos U I q = pos U I q := by
  unfold kpos pos
  rw [mul_kappa]

/-! ## The accumulator's order of summation -/

/-- After `n` key blocks a lane holds the chunk terms of the blocks below `n`. -/
theorem acc_range (U I : Tbl) (q : Fin 16384) (l : Fin 128) (n : ℕ) :
    acc U I q l n
      = ∑ j ∈ Finset.range n, (if h : j < 16 then ∑ c : Fin 8, kterm U I q (col ⟨j, h⟩ c l) else 0) := by
  induction n with
  | zero => rfl
  | succ n ih =>
    rw [acc, Finset.sum_range_succ, ← ih]
    by_cases h : n < 16
    · rw [dif_pos h, dif_pos h]
      unfold accStep
      rw [Fin.sum_univ_eight]
      simp only [add_assoc]
    · rw [dif_neg h, dif_neg h, add_zero]

/-- The full accumulator's lane: all sixteen blocks' chunk terms. -/
theorem acc_full (U I : Tbl) (q : Fin 16384) (l : Fin 128) :
    acc U I q l 16 = ∑ kb : Fin 16, ∑ c : Fin 8, kterm U I q (col kb c l) := by
  rw [acc_range, ← Fin.sum_univ_eq_sum_range
    (fun j => if h : j < 16 then ∑ c : Fin 8, kterm U I q (col ⟨j, h⟩ c l) else 0) 16]
  exact Finset.sum_congr rfl fun kb _ => dif_pos kb.isLt

/-- (lane, key block, chunk) ↦ column is a bijection onto the 16384 columns: column = 1024·block + 128·chunk + lane. -/
def colEquiv : Fin 128 × Fin 16 × Fin 8 ≃ Fin 16384 where
  toFun p := col p.2.1 p.2.2 p.1
  invFun k := (⟨k.val % 128, by omega⟩, ⟨k.val / 1024, by omega⟩, ⟨k.val / 128 % 8, by omega⟩)
  left_inv := fun ⟨l, kb, c⟩ => by
    have hl := l.isLt
    have hkb := kb.isLt
    have hc := c.isLt
    refine Prod.ext (Fin.ext ?_) (Prod.ext (Fin.ext ?_) (Fin.ext ?_)) <;> dsimp only [col] <;> omega
  right_inv := fun k => by
    refine Fin.ext ?_
    dsimp only [col]
    omega

/-- The lanes of the full accumulator add up to the sum of all 16384 terms. -/
theorem ktot_eq_sum (U I : Tbl) (q : Fin 16384) : ktot U I q = ∑ k, kterm U I q k := by
  unfold ktot
  rw [← Equiv.sum_comp colEquiv (fun k => kterm U I q k), Fintype.sum_prod_type]
  refine Finset.sum_congr rfl fun l _ => ?_
  rw [acc_full, Fintype.sum_prod_type]
  rfl

theorem ktot_eq (U I : Tbl) (hU : ∀ r d, ∃ x : ℝ, U r d = (x : EReal)) (hI : ∀ r d, ∃ x : ℝ, I r d = (x : EReal))
    (q : Fin 16384) : ktot U I q = tot U I q := by
  rw [ktot_eq_sum]
  unfold tot
  exact Finset.sum_congr rfl fun k _ => kterm_eq U I hU hI q k

theorem kloss_eq (U I : Tbl) (hU : ∀ r d, ∃ x : ℝ, U r d = (x : EReal)) (hI : ∀ r d, ∃ x : ℝ, I r d = (x : EReal))
    (q : Fin 16384) : kloss U I q = loss U I q := by
  unfold kloss loss
  rw [kpos_eq, ktot_eq U I hU hI, zero_sub]

/-- On finite tables the kernel's arrangement is the specification. -/
theorem kresult_eq (U I : Tbl) (hU : ∀ r d, ∃ x : ℝ, U r d = (x : EReal)) (hI : ∀ r d, ∃ x : ℝ, I r d = (x : EReal)) :
    kresult U I = result U I := by
  unfold kresult result
  rw [Finset.sum_congr rfl fun q _ => kloss_eq U I hU hI q]

end Cert.Law

end
-- ==== Proof.KI_ValAsm.lean ====
/-
  The mean on the host, read back: the program's result buffer ends at (0 + the sum of the loss column) / 16384, and
  the loss column is what the second pallas_call left. Given the column entry by entry, the result is the kernel's
  arrangement of the mean loss.
-/
import proofs.«410407_j27642409517745_3_alg».proof.Proof.KI_Run
import proofs.«410407_j27642409517745_3_alg».proof.Proof.Spec
import proofs.«410407_j27642409517745_3_alg».proof.Proof.Law
import Idealize.ShloMosaic.Lib.StableHlo.Run
import Idealize.ShloMosaic.Lib.ValueIdx
import Idealize.ShloMosaic.PureOps.Ideal.Laws

set_option maxRecDepth 16384

noncomputable section

namespace Cert.KernelIdeal.Val

open Cert.KernelIdeal.Gen Cert.KernelIdeal.Fr
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The loss column's entries are its 16384 rows. -/
def colEquiv : S16384x1.Idx ≃ Fin 16384 where
  toFun i := i 0
  invFun r := ValueIdx.ix2 r (0 : Fin 1)
  left_inv i := by
    funext a
    match a with
    | ⟨0, _⟩ => rfl
    | ⟨1, h⟩ =>
      have h1 : (i ⟨1, h⟩).val < 1 := (i ⟨1, h⟩).isLt
      exact Fin.ext (Nat.lt_one_iff.mp h1).symm
  right_inv _ := rfl

/-- The mean of a column whose entries are the rows' losses. -/
theorem mean_of_col (y : FVec Ideal S16384x1 .f32) (U I : Cert.Spec.Tbl)
    (hy : ∀ r : Fin 16384, y (ValueIdx.ix2 r (0 : Fin 1)) = Cert.Law.kloss U I r) :
    (Host.divf (F := Ideal) (Host.reduceAdd (F := Ideal) y (constant (F := Ideal) S_ .f32 0x00000000#32) reducesTo_S16384x1_S_d0_1 h_S_)
        (constant (F := Ideal) S_ .f32 0x46800000#32) : FVec Ideal S_ .f32) = fun _ => Cert.Law.kresult U I := by
  funext i
  show FloatOps.hostDivf (Host.reduceAdd (F := Ideal) y (constant (F := Ideal) S_ .f32 0x00000000#32) reducesTo_S16384x1_S_d0_1 h_S_ i) _ = _
  simp only [Host.reduceAdd, Ideal.hostReduceAdd_def]
  rw [Ideal.hostReduceAdd_total reducesTo_S16384x1_S_d0_1 (fun b => b.elim0) y _ i, ← Equiv.sum_comp colEquiv.symm]
  simp only [Ideal.hostDivf_def, constant, Ideal.ofBits_def, Ideal.ofBits_zero_f32, zero_add]
  have e : ∀ q : Fin 16384, y (colEquiv.symm q) = Cert.Law.kloss U I q := fun q => hy q
  simp only [e]
  rfl

/-- What the host lines leave in the result buffer, from the loss column they read. -/
theorem result_after (c : Dev nD) :
    W3 m c (Proc.devRef .tc main_v3)
      = (Host.divf (F := Ideal) (Host.reduceAdd (F := Ideal) (W2 m c (Proc.devRef .tc main_v1)) (constant (F := Ideal) S_ .f32 0x00000000#32) reducesTo_S16384x1_S_d0_1 h_S_)
          (constant (F := Ideal) S_ .f32 0x46800000#32) : FVec Ideal S_ .f32) := by
  show StableHlo.after hostOps2 _ (Proc.devRef .tc main_v3) = _
  after_results

/-- The result is the kernel's arrangement of the mean loss, once the loss column is known entry by entry. -/
theorem result_value_of (c : Dev nD) (U I : Cert.Spec.Tbl)
    (hloss : ∀ r : Fin 16384, (dat1 (Vr1 m) c).arrAt 3 cfg1.N (ValueIdx.ix2 r (0 : Fin 1)) = Cert.Law.kloss U I r) :
    W3 m c (Proc.devRef .tc main_v3) = fun _ => Cert.Law.kresult U I := by
  have hcol : W2 m c (Proc.devRef .tc main_v1) = (dat1 (Vr1 m) c).arrAt 3 cfg1.N := W2_arr m c 3
  exact (result_after m c).trans (by rw [hcol]; exact mean_of_col _ U I hloss)

end Cert.KernelIdeal.Val

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KI_Val0.lean ====
/-
  What the first pallas_call leaves in its three result arrays, entry by entry, at the ideal instance: row r of the
  first holds the user row scaled to unit length, row r of the second the sum of the two unit rows, entry r of the
  third the positive score exp((û_r · î_r) · inv_tau).
-/
import proofs.«410407_j27642409517745_3_alg».proof.Proof.KI_R0
import proofs.«410407_j27642409517745_3_alg».proof.Proof.Spec
import proofs.«410407_j27642409517745_3_alg».proof.Proof.Law
import proofs.«410407_j27642409517745_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val

open Cert.KernelIdeal.Gen Cert.KernelIdeal.Fr
open Idealize.ShloMosaic Idealize.ShloMosaic.TcCoe Idealize.SL.Sem
open Idealize.ShloMosaic.Pipeline (Dat)
open Idealize.ShloMosaic.ValueIdx Cert.Lib.Column

/-- The kernel's named reciprocal temperature is the rational the certificate's table gives it. -/
theorem named_kappa : Named.named (F := Ideal) Cert.KernelIdeal.κ "inv_tau" (φ := .f32) 0x40649249#32 = Cert.Law.kappa :=
  IdealRules.named_const.ideal_named_scalar _ _ _ _ rfl

/-! ## The body's arithmetic at an entry of a block

A block is 2048 rows of 64 lanes. The body squares a block entry by entry, adds each row's 64 squares, takes the root,
guards it from below and divides the row by it; the score column multiplies the two unit blocks entry by entry, adds
each row's 64 products, scales by the reciprocal temperature and exponentiates. -/

/-- The guarded Euclidean norm of row `p` of a block. -/
def bnrm (x : FVec Ideal S2048x64 .f32) (p : Fin 2048) : EReal :=
  max (Ideal.sqrt (∑ d : Fin 64, x (ix2 p d) * x (ix2 p d))) Cert.Spec.eps12

/-- The entry of row `p` that a sum along the lanes visits at step `k` is lane `k` of that row. -/
theorem lift_row (h : S2048x64.Reduces [1] S2048) (p : Fin 2048) (k : Fin 64) :
    h.lift (ix1 p) k = ix2 p k :=
  funext fun a => match a with
    | ⟨0, _⟩ => rfl
    | ⟨1, _⟩ => rfl

/-- A sum along the lanes, from the zero word, read at row `p`: the 64 entries of the row added. -/
theorem rowsum_apply (v : FVec Ideal S2048x64 .f32) (h : S2048x64.Reduces [1] S2048) (hφ) (hacc) (p : Fin 2048) :
    multiReduction (F := Ideal) .add [1] S2048 v 0x00000000#32 h hφ hacc (ix1 p) = ∑ d : Fin 64, v (ix2 p d) := by
  refine (Ideal.multiReduction_add_single v _ h hφ hacc (ix1 p)).trans ?_
  exact Finset.sum_congr rfl fun k _ => congrArg v (lift_row h p k)

/-- A block scaled row by row to unit length, at an entry. -/
theorem pay1_apply (x : FVec Ideal S2048x64 .f32) (p : Fin 2048) (q : Fin 64) :
    k0_pay1 (F := Ideal) x (ix2 p q) = Ideal.div (x (ix2 p q)) (bnrm x p) := by
  unfold k0_pay1
  refine (divf_apply _ _ _).trans ?_
  refine congrArg (Ideal.div (x (ix2 p q))) ?_
  refine (broadcastTo_a1_ab_apply _ _ p q).trans ?_
  refine (maximumf_apply _ _ _).trans ?_
  unfold bnrm
  refine congrArg₂ max ?_ rfl
  show Ideal.sqrt (shapeCast S2048x1 _ _ (ix2 p (0 : Fin 1))) = _
  refine congrArg Ideal.sqrt ?_
  refine (shapeCast_a_a1_apply _ _ p 0).trans ?_
  refine (rowsum_apply _ _ _ _ p).trans ?_
  rfl

/-- The item block is scaled by the same operations. -/
theorem pay2_apply (x : FVec Ideal S2048x64 .f32) (p : Fin 2048) (q : Fin 64) :
    k0_pay2 (F := Ideal) x (ix2 p q) = Ideal.div (x (ix2 p q)) (bnrm x p) :=
  pay1_apply x p q

/-- Narrowing the unit rows to the shorter format changes no value. -/
theorem pay4_apply (x : FVec Ideal S2048x64 .f32) (p : Fin 2048) (q : Fin 64) :
    k0_pay4 (F := Ideal) x (ix2 p q) = Ideal.div (x (ix2 p q)) (bnrm x p) :=
  pay1_apply x p q

/-- The sum of the two unit blocks, narrowed, at an entry. -/
theorem pay5_apply (x0 x1 : FVec Ideal S2048x64 .f32) (p : Fin 2048) (q : Fin 64) :
    k0_pay5 (F := Ideal) x0 x1 (ix2 p q)
      = Ideal.div (x0 (ix2 p q)) (bnrm x0 p) + Ideal.div (x1 (ix2 p q)) (bnrm x1 p) := by
  show k0_pay1 (F := Ideal) x0 (ix2 p q) + k0_pay2 (F := Ideal) x1 (ix2 p q) = _
  rw [pay1_apply, pay2_apply]

/-- The score column at row `p`: the row's 64 products of unit entries added, times the reciprocal temperature,
    exponentiated. -/
theorem pay3_apply (x0 x1 : FVec Ideal S2048x64 .f32) (p : Fin 2048) (u : Fin 1) :
    k0_pay3 (F := Ideal) x0 x1 (ix2 p u)
      = Ideal.exp ((∑ d : Fin 64, Ideal.div (x0 (ix2 p d)) (bnrm x0 p) * Ideal.div (x1 (ix2 p d)) (bnrm x1 p))
          * Cert.Law.kappa) := by
  unfold k0_pay3
  show Ideal.exp (shapeCast S2048x1 _ _ (ix2 p u)
    * Named.named (F := Ideal) Cert.KernelIdeal.κ "inv_tau" (φ := .f32) 0x40649249#32) = _
  rw [named_kappa]
  refine congrArg (fun z => Ideal.exp (z * Cert.Law.kappa)) ?_
  refine (shapeCast_a_a1_apply _ _ p u).trans ?_
  refine (rowsum_apply _ _ _ _ p).trans ?_
  refine Finset.sum_congr rfl fun d _ => ?_
  refine (mulf_apply _ _ _).trans ?_
  rw [pay1_apply, pay2_apply]

/-! ## A block against the table it is cut from

Block `b` of a table is its rows `b · 2048 … b · 2048 + 2047`; so the guarded norm of a block's row is that of the
table's row, and the body's three results at a block entry are the specification's at the table entry. -/

/-- The guarded norm of a block row is the guarded norm of the table row it is. -/
theorem bnrm_eq (A : S16384x64.Idx → EReal) (x : FVec Ideal S2048x64 .f32) (b : ℕ) (hb : b < 8)
    (hx : ∀ (p : Fin 2048) (q : Fin 64), x (ix2 p q) = A (ix2 ⟨b * 2048 + p.val, by omega⟩ q))
    (p : Fin 2048) : bnrm x p = Cert.Spec.nrm (Cert.Spec.tbl A) ⟨b * 2048 + p.val, by omega⟩ := by
  unfold bnrm Cert.Spec.nrm Cert.Spec.tbl
  simp only [hx]

/-- A unit-length block entry is the table's unit-length entry. -/
theorem dir_eq (A : S16384x64.Idx → EReal) (x : FVec Ideal S2048x64 .f32) (b : ℕ) (hb : b < 8)
    (hx : ∀ (p : Fin 2048) (q : Fin 64), x (ix2 p q) = A (ix2 ⟨b * 2048 + p.val, by omega⟩ q))
    (p : Fin 2048) (q : Fin 64) :
    Ideal.div (x (ix2 p q)) (bnrm x p) = Cert.Spec.dir (Cert.Spec.tbl A) ⟨b * 2048 + p.val, by omega⟩ q := by
  rw [bnrm_eq A x b hb hx p, hx p q]
  rfl

/-! ## From the blocks to the arrays

Each of the eight grid points writes block `t` of every result array from blocks `t` of the two tables, and the
eight blocks tile each array: the point that covers row `r` is `r / 2048`. -/

variable (V : (c : Dev nD) → (b : Ref sig .tc) → Buf (Elt Ideal) ((c : Thread nD τ).loc b))

/-- The two argument tables as the call finds them. -/
abbrev tU (c : Dev nD) : Cert.Spec.Tbl := Cert.Spec.tbl (V c main_arg0)
abbrev tI (c : Dev nD) : Cert.Spec.Tbl := Cert.Spec.tbl (V c main_arg1)

/-- The offsets of a whole-block access are zero on both axes. -/
theorem hz : (![0, 0] : Fin 2 → Nat) = fun _ => 0 := funext fun a => by fin_cases a <;> rfl

/-- Every window of the call steps down the rows with the grid point and stays on the one block column. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The user table's block at point `t`: its row `p` is the table's row `t · 2048 + p`. -/
theorem iblk0_0_apply (c : Dev nD) (t : Fin cfg0.N) (ht : t.val < 8) (p : Fin 2048) (q : Fin 64) :
    iblk0 V c 0 t (ix2 p q) = V c main_arg0 (ix2 ⟨t.val * 2048 + p.val, by omega⟩ q) := by
  obtain ⟨e0, e1, -⟩ := idx_facts t
  show V c main_arg0 (((cfg0.win 0).blk t).view.emb (ix2 p q)) = _
  refine congrArg (V c main_arg0) (funext fun a => Fin.ext ?_)
  match a with
  | ⟨0, _⟩ => show win0_0.index t (0 : Fin 2) * 2048 + 1 * p.val = t.val * 2048 + p.val; omega
  | ⟨1, _⟩ => show win0_0.index t (1 : Fin 2) * 64 + 1 * q.val = q.val; omega

/-- The item table's block at point `t`, likewise. -/
theorem iblk0_1_apply (c : Dev nD) (t : Fin cfg0.N) (ht : t.val < 8) (p : Fin 2048) (q : Fin 64) :
    iblk0 V c 1 t (ix2 p q) = V c main_arg1 (ix2 ⟨t.val * 2048 + p.val, by omega⟩ q) := by
  obtain ⟨-, -, e0, e1, -⟩ := idx_facts t
  show V c main_arg1 (((cfg0.win 1).blk t).view.emb (ix2 p q)) = _
  refine congrArg (V c main_arg1) (funext fun a => Fin.ext ?_)
  match a with
  | ⟨0, _⟩ => show win0_1.index t (0 : Fin 2) * 2048 + 1 * p.val = t.val * 2048 + p.val; omega
  | ⟨1, _⟩ => show win0_1.index t (1 : Fin 2) * 64 + 1 * q.val = q.val; omega

/-- The first result array as one function of the user table. -/
def Gun (c : Dev nD) : S16384x64.Idx → EReal := fun i => Cert.Spec.dir (tU V c) (i 0) (i 1)
/-- The second as one function of the two tables. -/
def Gw (c : Dev nD) : S16384x64.Idx → EReal := fun i => Cert.Law.wsum (tU V c) (tI V c) (i 0) (i 1)
/-- The third as one function of the two tables. -/
def Gpos (c : Dev nD) : S16384x1.Idx → EReal := fun i => Cert.Law.kpos (tU V c) (tI V c) (i 0)

/-- What point `t` writes back to the first result array is block `t` of the table of unit user rows. -/
theorem flushed2_eq (c : Dev nD) (t : Fin cfg0.N) :
    (dat0 V c).flushed 2 t = ((cfg0.win 2).blk t).view.read (Elt Ideal) (Gun V c) := by
  show (cfg0.win 2).cut (grid0.coords t) ((dat0 V c).after 2 t) = _
  rw [after0_2]
  unfold out0_2
  rw [View.canon_unit_zero hz]
  simp only [View.ld_unit_zero (S := S2048x64) hz]
  have ht : t.val < 8 := t.isLt
  obtain ⟨-, -, -, -, e0, e1, -⟩ := idx_facts t
  funext j
  obtain ⟨p, q, rfl⟩ : ∃ (p : Fin 2048) (q : Fin 64), j = ix2 p q := ⟨j 0, j 1, eq_ix2 j⟩
  show k0_pay4 (F := Ideal) (iblk0 V c 0 t) (ix2 p q) = Gun V c (((cfg0.win 2).blk t).view.emb (ix2 p q))
  refine (pay4_apply (iblk0 V c 0 t) p q).trans ?_
  refine (dir_eq (V c main_arg0) (iblk0 V c 0 t) t.val ht (iblk0_0_apply V c t ht) p q).trans ?_
  show Cert.Spec.dir (tU V c) _ _ = Cert.Spec.dir (tU V c) _ _
  refine congrArg₂ (Cert.Spec.dir (tU V c)) (Fin.ext ?_) (Fin.ext ?_)
  · show t.val * 2048 + p.val = win0_2.index t (0 : Fin 2) * 2048 + 1 * p.val; omega
  · show q.val = win0_2.index t (1 : Fin 2) * 64 + 1 * q.val; omega

/-- What point `t` writes back to the second result array is block `t` of the table of summed unit rows. -/
theorem flushed3_eq (c : Dev nD) (t : Fin cfg0.N) :
    (dat0 V c).flushed 3 t = ((cfg0.win 3).blk t).view.read (Elt Ideal) (Gw V c) := by
  show (cfg0.win 3).cut (grid0.coords t) ((dat0 V c).after 3 t) = _
  rw [after0_3]
  unfold out0_3
  rw [View.canon_unit_zero hz]
  simp only [View.ld_unit_zero (S := S2048x64) hz]
  have ht : t.val < 8 := t.isLt
  obtain ⟨-, -, -, -, -, -, e0, e1, -⟩ := idx_facts t
  funext j
  obtain ⟨p, q, rfl⟩ : ∃ (p : Fin 2048) (q : Fin 64), j = ix2 p q := ⟨j 0, j 1, eq_ix2 j⟩
  show k0_pay5 (F := Ideal) (iblk0 V c 0 t) (iblk0 V c 1 t) (ix2 p q) = Gw V c (((cfg0.win 3).blk t).view.emb (ix2 p q))
  refine (pay5_apply (iblk0 V c 0 t) (iblk0 V c 1 t) p q).trans ?_
  refine (congrArg₂ (· + ·) (dir_eq (V c main_arg0) (iblk0 V c 0 t) t.val ht (iblk0_0_apply V c t ht) p q)
    (dir_eq (V c main_arg1) (iblk0 V c 1 t) t.val ht (iblk0_1_apply V c t ht) p q)).trans ?_
  show Cert.Law.wsum (tU V c) (tI V c) _ _ = Cert.Law.wsum (tU V c) (tI V c) _ _
  refine congrArg₂ (Cert.Law.wsum (tU V c) (tI V c)) (Fin.ext ?_) (Fin.ext ?_)
  · show t.val * 2048 + p.val = win0_3.index t (0 : Fin 2) * 2048 + 1 * p.val; omega
  · show q.val = win0_3.index t (1 : Fin 2) * 64 + 1 * q.val; omega

/-- The score of a block row is the score of the table row it is. -/
theorem pos_eq (A B : S16384x64.Idx → EReal) (x0 x1 : FVec Ideal S2048x64 .f32) (b : ℕ) (hb : b < 8)
    (hx0 : ∀ (p : Fin 2048) (q : Fin 64), x0 (ix2 p q) = A (ix2 ⟨b * 2048 + p.val, by omega⟩ q))
    (hx1 : ∀ (p : Fin 2048) (q : Fin 64), x1 (ix2 p q) = B (ix2 ⟨b * 2048 + p.val, by omega⟩ q))
    (p : Fin 2048) :
    Ideal.exp ((∑ d : Fin 64, Ideal.div (x0 (ix2 p d)) (bnrm x0 p) * Ideal.div (x1 (ix2 p d)) (bnrm x1 p))
        * Cert.Law.kappa)
      = Cert.Law.kpos (Cert.Spec.tbl A) (Cert.Spec.tbl B) ⟨b * 2048 + p.val, by omega⟩ := by
  unfold Cert.Law.kpos
  refine congrArg (fun z => Ideal.exp (z * Cert.Law.kappa)) (Finset.sum_congr rfl fun d _ => ?_)
  rw [dir_eq A x0 b hb hx0 p d, dir_eq B x1 b hb hx1 p d]

/-- What point `t` writes back to the third result array is block `t` of the column of positive scores. -/
theorem flushed4_eq (c : Dev nD) (t : Fin cfg0.N) :
    (dat0 V c).flushed 4 t = ((cfg0.win 4).blk t).view.read (Elt Ideal) (Gpos V c) := by
  show (cfg0.win 4).cut (grid0.coords t) ((dat0 V c).after 4 t) = _
  rw [after0_4]
  unfold out0_4
  rw [View.canon_unit_zero hz]
  simp only [View.ld_unit_zero (S := S2048x64) hz]
  have ht : t.val < 8 := t.isLt
  obtain ⟨-, -, -, -, -, -, -, -, e0, e1⟩ := idx_facts t
  funext j
  obtain ⟨p, u, rfl⟩ : ∃ (p : Fin 2048) (u : Fin 1), j = ix2 p u := ⟨j 0, j 1, eq_ix2 j⟩
  show k0_pay3 (F := Ideal) (iblk0 V c 0 t) (iblk0 V c 1 t) (ix2 p u) = Gpos V c (((cfg0.win 4).blk t).view.emb (ix2 p u))
  refine (pay3_apply (iblk0 V c 0 t) (iblk0 V c 1 t) p u).trans ?_
  refine (pos_eq (V c main_arg0) (V c main_arg1) (iblk0 V c 0 t) (iblk0 V c 1 t) t.val ht
    (iblk0_0_apply V c t ht) (iblk0_1_apply V c t ht) p).trans ?_
  show Cert.Law.kpos (tU V c) (tI V c) _ = Cert.Law.kpos (tU V c) (tI V c) _
  refine congrArg (Cert.Law.kpos (tU V c) (tI V c)) (Fin.ext ?_)
  show t.val * 2048 + p.val = win0_4.index t (0 : Fin 2) * 2048 + 1 * p.val; omega

/-- An entry of a 16384 × 64 array is in point `t`'s block iff each coordinate is in the block's range on its axis. -/
theorem mem_blk2 (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v0_0).slice (win0_2.rect t)).set ↔ _
  rw [View.set_slice_whole, Rect.mem_set_unit]
  exact Iff.rfl

/-- The same for the second result array. -/
theorem mem_blk3 (t : Fin cfg0.N) (i : S16384x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v0_1).slice (win0_3.rect t)).set ↔ _
  rw [View.set_slice_whole, Rect.mem_set_unit]
  exact Iff.rfl

/-- The same for the 16384 × 1 column. -/
theorem mem_blk4 (t : Fin cfg0.N) (i : S16384x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v0_2).slice (win0_4.rect t)).set ↔ _
  rw [View.set_slice_whole, Rect.mem_set_unit]
  exact Iff.rfl

/-- Row `r` lies in the block of point `r / 2048`. -/
theorem point_of_row (n : ℕ) (hn : n < 16384) : ∃ t : Fin cfg0.N, t.val = n / 2048 :=
  ⟨⟨n / 2048, by show n / 2048 < 8; omega⟩, rfl⟩

/-- Every entry of the first result array is in the block of the point `row / 2048`, which writes it back. -/
theorem cover2 (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := point_of_row (i 0).val hi0
  obtain ⟨-, -, -, -, e0, e1, -⟩ := idx_facts t
  refine ⟨t, flush0_2 t, ?_⟩
  rw [mem_blk2]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 64 ≤ (i 1).val ∧ (i 1).val < win0_2.index t (1 : Fin 2) * 64 + 64
    omega

/-- The same for the second result array. -/
theorem cover3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  obtain ⟨t, ht⟩ := point_of_row (i 0).val hi0
  obtain ⟨-, -, -, -, -, -, e0, e1, -⟩ := idx_facts t
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 64 ≤ (i 1).val ∧ (i 1).val < win0_3.index t (1 : Fin 2) * 64 + 64
    omega

/-- The same for the column of scores. -/
theorem cover4 (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ := point_of_row (i 0).val hi0
  obtain ⟨-, -, -, -, -, -, -, -, e0, e1⟩ := idx_facts t
  refine ⟨t, flush0_4 t, ?_⟩
  rw [mem_blk4]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1 ≤ (i 1).val ∧ (i 1).val < win0_4.index t (1 : Fin 2) * 1 + 1
    omega

/-- The first result array after the call, whole: the eight blocks written back tile it. -/
theorem final0_2 (c : Dev nD) : (dat0 V c).arrAt 2 cfg0.N = Gun V c :=
  (dat0 V c).arrAt_eq_of_cover 2 (Gun V c) (fun t _ => flushed2_eq V c t) cover2
/-- The second, whole. -/
theorem final0_3 (c : Dev nD) : (dat0 V c).arrAt 3 cfg0.N = Gw V c :=
  (dat0 V c).arrAt_eq_of_cover 3 (Gw V c) (fun t _ => flushed3_eq V c t) cover3
/-- The third, whole. -/
theorem final0_4 (c : Dev nD) : (dat0 V c).arrAt 4 cfg0.N = Gpos V c :=
  (dat0 V c).arrAt_eq_of_cover 4 (Gpos V c) (fun t _ => flushed4_eq V c t) cover4

/-- Entry (r, d) of the first result array: the user table's row r scaled to unit length, at d. -/
theorem un_apply (c : Dev nD) (r : Fin 16384) (d : Fin 64) :
    (dat0 V c).arrAt 2 cfg0.N (ValueIdx.ix2 r d) = Cert.Spec.dir (tU V c) r d := by
  rw [final0_2]
  rfl

/-- Entry (r, d) of the second result array: the sum of the two unit rows r, at d. -/
theorem w_apply (c : Dev nD) (r : Fin 16384) (d : Fin 64) :
    (dat0 V c).arrAt 3 cfg0.N (ValueIdx.ix2 r d) = Cert.Law.wsum (tU V c) (tI V c) r d := by
  rw [final0_3]
  rfl

/-- Entry r of the third result array: the positive score of row r, by the reciprocal temperature. -/
theorem pos_apply (c : Dev nD) (r : Fin 16384) :
    (dat0 V c).arrAt 4 cfg0.N (ValueIdx.ix2 r (0 : Fin 1)) = Cert.Law.kpos (tU V c) (tI V c) r := by
  rw [final0_4]
  rfl

end Cert.KernelIdeal.Val

end
-- ==== Proof.KI_Val1Blk.lean ====
/-
  The second pallas_call's windows, entry by entry: block (q, k)'s rows of each input array, and the loss column
  assembled from the blocks the last point of each row block writes back.
-/
import proofs.«410407_j27642409517745_3_alg».proof.Proof.KI_R1
import Idealize.ShloMosaic.Lib.Pipeline.Value
import Idealize.ShloMosaic.Lib.ValueIdx

set_option maxRecDepth 16384

noncomputable section

namespace Cert.KernelIdeal.Val

open Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The grid is 8 row blocks by 16 key blocks, the key block running fastest: at point `t` the user rows, the
    positive scores and the loss block are block `t / 16` of their arrays, the key rows block `t mod 16` of theirs;
    every window stays on the one block column. -/
theorem block_of_point1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, _)

/-- Point `t` is key block `t mod 16` of row block `t / 16`. Row `p` of the user block is row `(t/16)·2048 + p`. -/
theorem blk0_apply (c : Dev nD) (t : Fin cfg1.N) (p : Fin 2048) (d : Fin 64) (hr : (t.val / 16) * 2048 + p.val < 16384) :
    iblk1 V c 0 t (ValueIdx.ix2 p d) = V c main_v0_0 (ValueIdx.ix2 (⟨(t.val / 16) * 2048 + p.val, hr⟩ : Fin 16384) d) := by
  obtain ⟨e0, e1, -⟩ := block_of_point1 t
  show V c main_v0_0 (((cfg1.win 0).blk t).view.emb (ValueIdx.ix2 p d)) = _
  refine congrArg (V c main_v0_0) (funext fun a => Fin.ext ?_)
  match a with
  | ⟨0, _⟩ => show win1_0.index t (0 : Fin 2) * 2048 + 1 * p.val = t.val / 16 * 2048 + p.val; omega
  | ⟨1, _⟩ => show win1_0.index t (1 : Fin 2) * 64 + 1 * d.val = d.val; omega

/-- Row `j` of the key block is row `(t mod 16)·1024 + j`. -/
theorem blk1_apply (c : Dev nD) (t : Fin cfg1.N) (j : Fin 1024) (d : Fin 64) (hr : (t.val % 16) * 1024 + j.val < 16384) :
    iblk1 V c 1 t (ValueIdx.ix2 j d) = V c main_v0_1 (ValueIdx.ix2 (⟨(t.val % 16) * 1024 + j.val, hr⟩ : Fin 16384) d) := by
  obtain ⟨-, -, e0, e1, -⟩ := block_of_point1 t
  show V c main_v0_1 (((cfg1.win 1).blk t).view.emb (ValueIdx.ix2 j d)) = _
  refine congrArg (V c main_v0_1) (funext fun a => Fin.ext ?_)
  match a with
  | ⟨0, _⟩ => show win1_1.index t (0 : Fin 2) * 1024 + 1 * j.val = t.val % 16 * 1024 + j.val; omega
  | ⟨1, _⟩ => show win1_1.index t (1 : Fin 2) * 64 + 1 * d.val = d.val; omega

/-- Row `p` of the positive-score block is row `(t/16)·2048 + p`. -/
theorem blk2_apply (c : Dev nD) (t : Fin cfg1.N) (p : Fin 2048) (hr : (t.val / 16) * 2048 + p.val < 16384) :
    iblk1 V c 2 t (ValueIdx.ix2 p (0 : Fin 1)) = V c main_v0_2 (ValueIdx.ix2 (⟨(t.val / 16) * 2048 + p.val, hr⟩ : Fin 16384) (0 : Fin 1)) := by
  obtain ⟨-, -, -, -, e0, e1, -⟩ := block_of_point1 t
  show V c main_v0_2 (((cfg1.win 2).blk t).view.emb (ValueIdx.ix2 p (0 : Fin 1))) = _
  refine congrArg (V c main_v0_2) (funext fun a => Fin.ext ?_)
  match a with
  | ⟨0, _⟩ => show win1_2.index t (0 : Fin 2) * 2048 + 1 * p.val = t.val / 16 * 2048 + p.val; omega
  | ⟨1, _⟩ => show win1_2.index t (1 : Fin 2) * 1 + 1 * (0 : Fin 1).val = (0 : Fin 1).val; omega

/-- An entry of the loss column is in point `t`'s block iff each coordinate is in the block's range on its axis. -/
theorem mem_loss_blk (t : Fin cfg1.N) (i : S16384x1.Idx) :
    i ∈ ((cfg1.win 3).blk t).view.set ↔ ∀ a : Fin 2, win1_3.index t a * S2048x1.size a ≤ (i a).val
      ∧ (i a).val < win1_3.index t a * S2048x1.size a + S2048x1.size a := by
  show i ∈ ((View.whole main_v1).slice (win1_3.rect t)).set ↔ _
  rw [View.set_slice_whole, Rect.mem_set_unit]
  exact Iff.rfl

/-- The last point of the row block that holds row `n`. -/
theorem last_point_of_row (n : ℕ) (hn : n < 16384) : ∃ t : Fin cfg1.N, t.val = n / 2048 * 16 + 15 :=
  ⟨⟨n / 2048 * 16 + 15, by show n / 2048 * 16 + 15 < 128; omega⟩, rfl⟩

/-- Every entry of the loss column is in the block of the last point of its row block, and that point writes its
    block back. -/
theorem cover_loss (i : S16384x1.Idx) :
    ∃ t : Fin cfg1.N, (cfg1.win 3).flush t = true ∧ i ∈ ((cfg1.win 3).blk t).view.set := by
  have hi0 : (i 0).val < 16384 := (i 0).isLt
  have hi1 : (i 1).val < 1 := (i 1).isLt
  obtain ⟨t, ht⟩ := last_point_of_row (i 0).val hi0
  obtain ⟨-, -, -, -, -, -, e0, e1⟩ := block_of_point1 t
  refine ⟨t, (flush1_3 t).mpr (by omega), ?_⟩
  rw [mem_loss_blk]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 1 ≤ (i 1).val ∧ (i 1).val < win1_3.index t (1 : Fin 2) * 1 + 1
    omega

/-- The loss column after the call: if at the last point of every row block the body leaves in the output block the
    rows of one whole-column function `G`, the column is `G`. -/
theorem final3 (c : Dev nD) (G : Fin 16384 → EReal)
    (hlast : ∀ (t : Fin cfg1.N), t.val % 16 = 15 → ∀ (p : Fin 2048) (hr : (t.val / 16) * 2048 + p.val < 16384),
      (outsAt1 V c t.val t.isLt).1 (ValueIdx.ix2 p (0 : Fin 1)) = G ⟨(t.val / 16) * 2048 + p.val, hr⟩)
    (r : Fin 16384) :
    (dat1 V c).arrAt 3 cfg1.N (ValueIdx.ix2 r (0 : Fin 1)) = G r := by
  have hcol : (dat1 V c).arrAt 3 cfg1.N = (fun i : S16384x1.Idx => G (i 0)) := by
    refine (dat1 V c).arrAt_eq_of_cover 3 (fun i : S16384x1.Idx => G (i 0)) (fun t hf => ?_) cover_loss
    have h15 : t.val % 16 = 15 := (flush1_3 t).mp hf
    have ht : t.val < 128 := t.isLt
    obtain ⟨-, -, -, -, -, -, e0, e1⟩ := block_of_point1 t
    show (cfg1.win 3).cut (grid1.coords t) ((dat1 V c).after 3 t) = _
    rw [after1_3]
    funext j
    obtain ⟨p, u, rfl⟩ : ∃ (p : Fin 2048) (u : Fin 1), j = ValueIdx.ix2 p u := ⟨j 0, j 1, ValueIdx.eq_ix2 j⟩
    obtain rfl : u = 0 := Fin.ext (by omega)
    show (outsAt1 V c t.val t.isLt).1 (ValueIdx.ix2 p (0 : Fin 1))
      = G ((((cfg1.win 3).blk t).view.emb (ValueIdx.ix2 p (0 : Fin 1))) 0)
    refine (hlast t h15 p (by omega)).trans (congrArg G (Fin.ext ?_))
    show t.val / 16 * 2048 + p.val = win1_3.index t (0 : Fin 2) * 2048 + 1 * p.val
    omega
  rw [hcol]

end Cert.KernelIdeal.Val

end
-- ==== Proof.KI_Val1a.lean ====
/-
  What one grid point of the second call leaves in the accumulator and in the output block, as values.
  A point loads the row block of unit rows and, one after the other, the eight 128-row chunks of its key block;
  chunk c contributes exp((rows · chunk rows) · inv_tau), a 2048 × 128 tile, which is added to the accumulator.
  So a point maps the accumulator a to step(a) = ((a + e₀) + e₁) + … + e₇; a first point starts from the zero tile,
  and a last point then stores 0 − log(pos / (lane sum of step(a) + ε₈)) into the output block.
-/
import proofs.«410407_j27642409517745_3_alg».proof.Proof.KI_R1
import Idealize.ShloMosaic.Lib.Pipeline.Value
import Idealize.ShloMosaic.Lib.Tactic

set_option maxRecDepth 16384

noncomputable section

namespace Cert.KernelIdeal.Val1

open Cert.KernelIdeal.Gen Cert.KernelIdeal.Fr
open Idealize.ShloMosaic Idealize.ShloMosaic.TcCoe Idealize.SL.Sem Idealize.ShloMosaic.Tactic

variable {F : FTy → Type} [FloatOps F] [Named F]

theorem hz : (![0, 0] : Fin 2 → Nat) = fun _ => 0 := funext fun a => by fin_cases a <;> rfl

/-- A load of the whole buffer, after stores of which the LAST covered the whole buffer, reads that store's value. -/
theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨⟨Rect.unit _ S.size inb, w⟩, List.mem_cons_self,
      View.mem_set_unit_zero rfl inb y⟩), View.canon_cons_unit_zero rfl, View.ld_unit_zero rfl]

/-- What a point makes of the accumulator `a`: the eight chunk terms of its key block `x1` against the row block
    `x0`, added in order. -/
def step (x0 : Vec F S2048x64 .bf16) (x1 : Vec F S1024x64 .bf16) (a : Vec F S2048x128 .f32) : Vec F S2048x128 .f32 :=
  k1_pay14 (k1_pay2 x0) (View.ld x1 (Rect.unit ![896, 0] S128x64.size inb_S1024x64_S128x64_896_0))
    (k1_pay13 (k1_pay2 x0) (View.ld x1 (Rect.unit ![768, 0] S128x64.size inb_S1024x64_S128x64_768_0))
      (k1_pay12 (k1_pay10 (k1_pay2 x0) (View.ld x1 (Rect.unit ![640, 0] S128x64.size inb_S1024x64_S128x64_640_0)))
        k1_pay11
        (k1_pay9 (k1_pay2 x0) (View.ld x1 (Rect.unit ![512, 0] S128x64.size inb_S1024x64_S128x64_512_0))
          (k1_pay8 (k1_pay2 x0) (View.ld x1 (Rect.unit ![384, 0] S128x64.size inb_S1024x64_S128x64_384_0))
            (k1_pay7 (k1_pay5 x0 (View.ld x1 (Rect.unit ![256, 0] S128x64.size inb_S1024x64_S128x64_256_0))) k1_pay6
              (k1_pay4 x0 (View.ld x1 (Rect.unit ![128, 0] S128x64.size inb_S1024x64_S128x64_128_0))
                (k1_pay3 x0 (View.ld x1 (Rect.unit ![0, 0] S128x64.size inb_S1024x64_S128x64_0_0)) a)))))))

/-- A middle point leaves the accumulator it found, stepped. -/
theorem sout_B (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : ¬cond1_1 i)
    (x0 : Vec F S2048x64 .bf16) (x1 : Vec F S1024x64 .bf16) (x2 : Vec F S2048x1 .f32) (xs : Vec F S2048x128 .f32) :
    sout1_B c i arg2 harg2 arg3 harg3 arg4 harg4 arg5 harg5 arg6 harg6 hc0 hc1 x0 x1 x2 xs = step x0 x1 xs := by
  unfold sout1_B
  rw [View.read_writes_eq_canon _ _ _ (scover1_B c i arg2 harg2 arg3 harg3 arg4 harg4 arg5 harg5 arg6 harg6 hc0 hc1 x0 x1 x2 xs)]
  unfold kernelRun1_B
  dsimp only
  rw [View.canon_cons_unit_zero (S := S2048x128) hz]
  sl_unfold_words
  simp only [readCov_cons_unit_zero (S := S2048x128) _ hz, View.readCov_unit_zero (S := S2048x128) _ hz,
    View.readAt_eq_ld, harg2.read_unread, harg3.read_unread, harg6.read_unread,
    View.ld_unit_zero (S := S2048x64) hz, View.ld_unit_zero (S := S2048x128) hz]
  rfl

/-- A first point leaves the zero tile, stepped. -/
theorem sout_A (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : cond1_0 i) (hc1 : ¬cond1_1 i)
    (x0 : Vec F S2048x64 .bf16) (x1 : Vec F S1024x64 .bf16) (x2 : Vec F S2048x1 .f32) :
    sout1_A c i arg2 harg2 arg3 harg3 arg4 harg4 arg5 harg5 arg6 harg6 hc0 hc1 x0 x1 x2 = step x0 x1 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  rw [View.canon_cons_unit_zero (S := S2048x128) hz]
  sl_unfold_words
  simp only [readCov_cons_unit_zero (S := S2048x128) _ hz, View.readCov_unit_zero (S := S2048x128) _ hz,
    View.readAt_eq_ld, harg2.read_unread, harg3.read_unread,
    View.ld_unit_zero (S := S2048x64) hz, View.ld_unit_zero (S := S2048x128) hz]
  rfl

/-- A last point leaves in the accumulator what a middle point would. -/
theorem sout_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) :
    sout1_C c i arg2 harg2 arg3 harg3 arg4 harg4 arg5 harg5 arg6 harg6 hc0 hc1 x0 x1 x2 xs = step x0 x1 xs := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  unfold kernelRun1_C.sl.HS_8
  rw [View.canon_cons_unit_zero (S := S2048x128) hz]
  sl_unfold_words
  simp only [readCov_cons_unit_zero (S := S2048x128) _ hz, View.readCov_unit_zero (S := S2048x128) _ hz,
    View.readAt_eq_ld, harg2.read_unread, harg3.read_unread, harg6.read_unread,
    View.ld_unit_zero (S := S2048x64) hz, View.ld_unit_zero (S := S2048x128) hz]
  rfl

/-- A last point stores the losses of its row block, computed from the stepped accumulator and the positive scores. -/
theorem out_C (c : Dev nD) (i : grid1.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x128 .f32) (harg6 : arg6.IsWhole) (hc0 : ¬cond1_0 i) (hc1 : cond1_1 i)
    (x0 : Vec F S2048x64 .bf16) (x1 : Vec F S1024x64 .bf16) (x2 : Vec F S2048x1 .f32) (xs : Vec F S2048x128 .f32) :
    out1_C_3 c i arg2 harg2 arg3 harg3 arg4 harg4 arg5 harg5 arg6 harg6 hc0 hc1 x0 x1 x2 xs = k1_pay15 (step x0 x1 xs) x2 := by
  unfold out1_C_3
  rw [View.read_writes_eq_canon _ _ _ (cover1_C_3 c i arg2 harg2 arg3 harg3 arg4 harg4 arg5 harg5 arg6 harg6 hc0 hc1 x0 x1 x2 xs)]
  unfold kernelRun1_C
  dsimp only
  rw [View.canon_unit_zero (S := S2048x1) hz]
  sl_unfold_words
  simp only [readCov_cons_unit_zero (S := S2048x128) _ hz, View.readCov_unit_zero (S := S2048x128) _ hz,
    View.readAt_eq_ld, harg2.read_unread, harg3.read_unread, harg4.read_unread, harg6.read_unread,
    View.ld_unit_zero (S := S2048x64) hz, View.ld_unit_zero (S := S2048x128) hz, View.ld_unit_zero (S := S2048x1) hz]
  rfl

end Cert.KernelIdeal.Val1

end
-- ==== Proof.KI_Val1b.lean ====
/-
  The point's arithmetic read at an entry, over the extended reals. Entry (p, l) of a chunk tile is
  exp((Σ_d rows[p, d] · chunk[l, d]) · inv_tau): the contraction runs over the 64 lanes of row p of the row block and of
  row l of the chunk, the product into a zero tile is the bare sum, and the named reciprocal temperature is the
  rational the certificate's table gives it. Chunk c of a key block is its rows 128·c … 128·c + 127. So the stepped
  accumulator at (p, l) is a(p, l) + e₀ + … + e₇ with e_c the term of key row 128·c + l, and the stored loss of row p is
  0 − log(pos_p / (Σ over the 128 lanes of the accumulator's row p + ε₈)).
-/
import proofs.«410407_j27642409517745_3_alg».proof.Proof.KI_Val1a
import proofs.«410407_j27642409517745_3_alg».proof.Proof.Law
import proofs.«410407_j27642409517745_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val1

open Cert.KernelIdeal.Gen Cert.KernelIdeal.Fr
open Idealize.ShloMosaic Idealize.ShloMosaic.TcCoe Idealize.SL.Sem
open Idealize.ShloMosaic.ValueIdx Cert.Lib.Column

/-- The named reciprocal temperature is the rational the certificate's table gives it. -/
theorem named_kappa :
    Named.named (F := Ideal) Cert.KernelIdeal.κ "inv_tau" (φ := .f32) 0x40649249#32 = Cert.Law.kappa :=
  IdealRules.named_const.ideal_named_scalar _ _ _ _ rfl

/-! ## The contraction at an entry -/

theorem lhs_0 (i : S2048x128.Idx) (q : dot_S2048x64_S128x64_S2048x128_1_1_0_0_n_n.contr.Idx) :
    (dot_S2048x64_S128x64_S2048x128_1_1_0_0_n_n.lhsIdx i q 0).val = (i 0).val := by
  unfold DotDims.lhsIdx
  rw [dif_neg (show ¬(0 : Fin S2048x64.rank) ∈ dot_S2048x64_S128x64_S2048x128_1_1_0_0_n_n.lhsBatch by decide), dif_pos (show (0 : Fin S2048x64.rank) ∈ dot_S2048x64_S128x64_S2048x128_1_1_0_0_n_n.lhsNonContracting by decide)]
  rfl
theorem lhs_1 (i : S2048x128.Idx) (q : dot_S2048x64_S128x64_S2048x128_1_1_0_0_n_n.contr.Idx) :
    (dot_S2048x64_S128x64_S2048x128_1_1_0_0_n_n.lhsIdx i q 1).val = (q ⟨0, by decide⟩).val :=
  dot_S2048x64_S128x64_S2048x128_1_1_0_0_n_n.lhsIdx_val_of_single rfl i q
theorem rhs_0 (i : S2048x128.Idx) (q : dot_S2048x64_S128x64_S2048x128_1_1_0_0_n_n.contr.Idx) :
    (dot_S2048x64_S128x64_S2048x128_1_1_0_0_n_n.rhsIdx i q 0).val = (i 1).val := by
  unfold DotDims.rhsIdx
  rw [dif_neg (show ¬(0 : Fin S128x64.rank) ∈ dot_S2048x64_S128x64_S2048x128_1_1_0_0_n_n.rhsBatch by decide), dif_pos (show (0 : Fin S128x64.rank) ∈ dot_S2048x64_S128x64_S2048x128_1_1_0_0_n_n.rhsNonContracting by decide)]
  rfl
theorem rhs_1 (i : S2048x128.Idx) (q : dot_S2048x64_S128x64_S2048x128_1_1_0_0_n_n.contr.Idx) :
    (dot_S2048x64_S128x64_S2048x128_1_1_0_0_n_n.rhsIdx i q 1).val = (q ⟨0, by decide⟩).val :=
  dot_S2048x64_S128x64_S2048x128_1_1_0_0_n_n.rhsIdx_val_of_single rfl i q

/-- The product of a row block and a chunk into the zero tile, at (p, l): row p against row l over the 64 lanes. -/
theorem mm_apply (x0 : FVec Ideal S2048x64 .bf16) (w : FVec Ideal S128x64 .bf16) (p : Fin 2048) (l : Fin 128) :
    FloatOps.matmul dot_S2048x64_S128x64_S2048x128_1_1_0_0_n_n none x0 w (constant S2048x128 .f32 0x00000000#32) (ix2 p l)
      = ∑ d : Fin 64, x0 (ix2 p d) * w (ix2 l d) := by
  rw [Ideal.matmul_constant_zero_apply, ← Equiv.sum_comp (ValueIdx.contrEquiv1 dot_S2048x64_S128x64_S2048x128_1_1_0_0_n_n 64 rfl rfl).symm]
  refine Finset.sum_congr rfl fun k _ => ?_
  have hk := ValueIdx.contrEquiv1_symm_val dot_S2048x64_S128x64_S2048x128_1_1_0_0_n_n 64 rfl rfl k
  have el : dot_S2048x64_S128x64_S2048x128_1_1_0_0_n_n.lhsIdx (ix2 p l) ((ValueIdx.contrEquiv1 dot_S2048x64_S128x64_S2048x128_1_1_0_0_n_n 64 rfl rfl).symm k) = ix2 p k := funext fun a => Fin.ext (by
    match a with
    | ⟨0, _⟩ => exact lhs_0 _ _
    | ⟨1, _⟩ => exact (lhs_1 _ _).trans hk)
  have er : dot_S2048x64_S128x64_S2048x128_1_1_0_0_n_n.rhsIdx (ix2 p l) ((ValueIdx.contrEquiv1 dot_S2048x64_S128x64_S2048x128_1_1_0_0_n_n 64 rfl rfl).symm k) = ix2 l k := funext fun a => Fin.ext (by
    match a with
    | ⟨0, _⟩ => exact rhs_0 _ _
    | ⟨1, _⟩ => exact (rhs_1 _ _).trans hk)
  rw [el, er]

/-- One chunk term at (p, l), of a row block and a chunk. -/
def eterm (x0 : FVec Ideal S2048x64 .bf16) (w : FVec Ideal S128x64 .bf16) (p : Fin 2048) (l : Fin 128) : EReal :=
  Ideal.exp ((∑ d : Fin 64, x0 (ix2 p d) * w (ix2 l d)) * Cert.Law.kappa)

/-! ## The eight updates at an entry -/

theorem pay3_apply (x0 : FVec Ideal S2048x64 .bf16) (w : FVec Ideal S128x64 .bf16) (a : FVec Ideal S2048x128 .f32)
    (p : Fin 2048) (l : Fin 128) :
    k1_pay3 (F := Ideal) x0 w a (ix2 p l) = a (ix2 p l) + eterm x0 w p l := by
  unfold k1_pay3 k1_pay2
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay4_apply (x0 : FVec Ideal S2048x64 .bf16) (w : FVec Ideal S128x64 .bf16) (a : FVec Ideal S2048x128 .f32)
    (p : Fin 2048) (l : Fin 128) :
    k1_pay4 (F := Ideal) x0 w a (ix2 p l) = a (ix2 p l) + eterm x0 w p l := by
  unfold k1_pay4 k1_pay2
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay7_apply (x0 : FVec Ideal S2048x64 .bf16) (w : FVec Ideal S128x64 .bf16) (a : FVec Ideal S2048x128 .f32)
    (p : Fin 2048) (l : Fin 128) :
    k1_pay7 (F := Ideal) (k1_pay5 (F := Ideal) x0 w) (k1_pay6 (F := Ideal)) a (ix2 p l) = a (ix2 p l) + eterm x0 w p l := by
  unfold k1_pay7 k1_pay5 k1_pay6 k1_pay2
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay8_apply (x0 : FVec Ideal S2048x64 .bf16) (w : FVec Ideal S128x64 .bf16) (a : FVec Ideal S2048x128 .f32)
    (p : Fin 2048) (l : Fin 128) :
    k1_pay8 (F := Ideal) x0 w a (ix2 p l) = a (ix2 p l) + eterm x0 w p l := by
  unfold k1_pay8
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay9_apply (x0 : FVec Ideal S2048x64 .bf16) (w : FVec Ideal S128x64 .bf16) (a : FVec Ideal S2048x128 .f32)
    (p : Fin 2048) (l : Fin 128) :
    k1_pay9 (F := Ideal) x0 w a (ix2 p l) = a (ix2 p l) + eterm x0 w p l := by
  unfold k1_pay9
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay12_apply (x0 : FVec Ideal S2048x64 .bf16) (w : FVec Ideal S128x64 .bf16) (a : FVec Ideal S2048x128 .f32)
    (p : Fin 2048) (l : Fin 128) :
    k1_pay12 (F := Ideal) (k1_pay10 (F := Ideal) x0 w) (k1_pay11 (F := Ideal)) a (ix2 p l) = a (ix2 p l) + eterm x0 w p l := by
  unfold k1_pay12 k1_pay10 k1_pay11
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay13_apply (x0 : FVec Ideal S2048x64 .bf16) (w : FVec Ideal S128x64 .bf16) (a : FVec Ideal S2048x128 .f32)
    (p : Fin 2048) (l : Fin 128) :
    k1_pay13 (F := Ideal) x0 w a (ix2 p l) = a (ix2 p l) + eterm x0 w p l := by
  unfold k1_pay13
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay14_apply (x0 : FVec Ideal S2048x64 .bf16) (w : FVec Ideal S128x64 .bf16) (a : FVec Ideal S2048x128 .f32)
    (p : Fin 2048) (l : Fin 128) :
    k1_pay14 (F := Ideal) x0 w a (ix2 p l) = a (ix2 p l) + eterm x0 w p l := by
  unfold k1_pay14
  simp only [shapeCast_self]
  show a (ix2 p l) + Ideal.exp (FloatOps.matmul dot_S2048x64_S128x64_S2048x128_1_1_0_0_n_n none x0 w (constant S2048x128 .f32 0x00000000#32) (ix2 p l)
    * Named.named (F := Ideal) Cert.KernelIdeal.κ "inv_tau" (φ := .f32) 0x40649249#32) = _
  rw [mm_apply, named_kappa]
  rfl

theorem pay2_eq (x0 : FVec Ideal S2048x64 .bf16) : k1_pay2 (F := Ideal) x0 = x0 := by
  unfold k1_pay2
  exact shapeCast_self _ _

/-! ## A chunk of the key block -/

/-- One chunk term at (p, l), of a row block and chunk `c` of a key block: key row 128·c + l. -/
def cterm (x0 : FVec Ideal S2048x64 .bf16) (x1 : FVec Ideal S1024x64 .bf16) (p : Fin 2048) (c : Fin 8) (l : Fin 128) : EReal :=
  Ideal.exp ((∑ d : Fin 64, x0 (ix2 p d) * x1 (ix2 (⟨c.val * 128 + l.val, by omega⟩ : Fin 1024) d)) * Cert.Law.kappa)

/-- The 128 rows from row `o` of a key block, read at (l, d): row o + l. -/
theorem ld_chunk (x1 : FVec Ideal S1024x64 .bf16) (o : ℕ) (inb : ∀ a, (![o, 0] : Fin 2 → ℕ) a + S128x64.size a ≤ S1024x64.size a)
    (l : Fin 128) (d : Fin 64) (h : o + l.val < 1024) :
    View.ld (Val := Elt Ideal) (e' := .bf16) x1 (Rect.unit ![o, 0] S128x64.size inb) (ix2 l d) = x1 (ix2 (⟨o + l.val, h⟩ : Fin 1024) d) := by
  show x1 _ = x1 _
  refine congrArg x1 (funext fun a => Fin.ext ?_)
  match a with
  | ⟨0, _⟩ => show o + 1 * l.val = o + l.val; omega
  | ⟨1, _⟩ => show 0 + 1 * d.val = d.val; omega

theorem eterm_ld (x0 : FVec Ideal S2048x64 .bf16) (x1 : FVec Ideal S1024x64 .bf16) (o : ℕ)
    (inb : ∀ a, (![o, 0] : Fin 2 → ℕ) a + S128x64.size a ≤ S1024x64.size a) (p : Fin 2048) (c : Fin 8) (l : Fin 128)
    (ho : o = c.val * 128) :
    eterm x0 (View.ld (Val := Elt Ideal) (e' := .bf16) x1 (Rect.unit ![o, 0] S128x64.size inb)) p l = cterm x0 x1 p c l := by
  subst ho
  unfold eterm cterm
  refine congrArg (fun z => Ideal.exp (z * Cert.Law.kappa)) (Finset.sum_congr rfl fun d _ => ?_)
  rw [ld_chunk x1 _ inb l d (by have := c.isLt; have := l.isLt; omega)]

theorem chunk0 (x0 : FVec Ideal S2048x64 .bf16) (x1 : FVec Ideal S1024x64 .bf16) (p : Fin 2048) (l : Fin 128) :
    eterm x0 (View.ld (Val := Elt Ideal) (e' := .bf16) x1 (Rect.unit ![0, 0] S128x64.size inb_S1024x64_S128x64_0_0)) p l = cterm x0 x1 p 0 l :=
  eterm_ld x0 x1 0 inb_S1024x64_S128x64_0_0 p 0 l rfl

theorem chunk1 (x0 : FVec Ideal S2048x64 .bf16) (x1 : FVec Ideal S1024x64 .bf16) (p : Fin 2048) (l : Fin 128) :
    eterm x0 (View.ld (Val := Elt Ideal) (e' := .bf16) x1 (Rect.unit ![128, 0] S128x64.size inb_S1024x64_S128x64_128_0)) p l = cterm x0 x1 p 1 l :=
  eterm_ld x0 x1 128 inb_S1024x64_S128x64_128_0 p 1 l rfl

theorem chunk2 (x0 : FVec Ideal S2048x64 .bf16) (x1 : FVec Ideal S1024x64 .bf16) (p : Fin 2048) (l : Fin 128) :
    eterm x0 (View.ld (Val := Elt Ideal) (e' := .bf16) x1 (Rect.unit ![256, 0] S128x64.size inb_S1024x64_S128x64_256_0)) p l = cterm x0 x1 p 2 l :=
  eterm_ld x0 x1 256 inb_S1024x64_S128x64_256_0 p 2 l rfl

theorem chunk3 (x0 : FVec Ideal S2048x64 .bf16) (x1 : FVec Ideal S1024x64 .bf16) (p : Fin 2048) (l : Fin 128) :
    eterm x0 (View.ld (Val := Elt Ideal) (e' := .bf16) x1 (Rect.unit ![384, 0] S128x64.size inb_S1024x64_S128x64_384_0)) p l = cterm x0 x1 p 3 l :=
  eterm_ld x0 x1 384 inb_S1024x64_S128x64_384_0 p 3 l rfl

theorem chunk4 (x0 : FVec Ideal S2048x64 .bf16) (x1 : FVec Ideal S1024x64 .bf16) (p : Fin 2048) (l : Fin 128) :
    eterm x0 (View.ld (Val := Elt Ideal) (e' := .bf16) x1 (Rect.unit ![512, 0] S128x64.size inb_S1024x64_S128x64_512_0)) p l = cterm x0 x1 p 4 l :=
  eterm_ld x0 x1 512 inb_S1024x64_S128x64_512_0 p 4 l rfl

theorem chunk5 (x0 : FVec Ideal S2048x64 .bf16) (x1 : FVec Ideal S1024x64 .bf16) (p : Fin 2048) (l : Fin 128) :
    eterm x0 (View.ld (Val := Elt Ideal) (e' := .bf16) x1 (Rect.unit ![640, 0] S128x64.size inb_S1024x64_S128x64_640_0)) p l = cterm x0 x1 p 5 l :=
  eterm_ld x0 x1 640 inb_S1024x64_S128x64_640_0 p 5 l rfl

theorem chunk6 (x0 : FVec Ideal S2048x64 .bf16) (x1 : FVec Ideal S1024x64 .bf16) (p : Fin 2048) (l : Fin 128) :
    eterm x0 (View.ld (Val := Elt Ideal) (e' := .bf16) x1 (Rect.unit ![768, 0] S128x64.size inb_S1024x64_S128x64_768_0)) p l = cterm x0 x1 p 6 l :=
  eterm_ld x0 x1 768 inb_S1024x64_S128x64_768_0 p 6 l rfl

theorem chunk7 (x0 : FVec Ideal S2048x64 .bf16) (x1 : FVec Ideal S1024x64 .bf16) (p : Fin 2048) (l : Fin 128) :
    eterm x0 (View.ld (Val := Elt Ideal) (e' := .bf16) x1 (Rect.unit ![896, 0] S128x64.size inb_S1024x64_S128x64_896_0)) p l = cterm x0 x1 p 7 l :=
  eterm_ld x0 x1 896 inb_S1024x64_S128x64_896_0 p 7 l rfl

/-- The stepped accumulator at (p, l): the eight chunk terms of the key block added in order. -/
theorem step_apply (x0 : FVec Ideal S2048x64 .bf16) (x1 : FVec Ideal S1024x64 .bf16) (a : FVec Ideal S2048x128 .f32)
    (p : Fin 2048) (l : Fin 128) :
    step (F := Ideal) x0 x1 a (ix2 p l)
      = a (ix2 p l) + cterm x0 x1 p 0 l + cterm x0 x1 p 1 l + cterm x0 x1 p 2 l + cterm x0 x1 p 3 l
          + cterm x0 x1 p 4 l + cterm x0 x1 p 5 l + cterm x0 x1 p 6 l + cterm x0 x1 p 7 l := by
  unfold step
  rw [pay2_eq, pay14_apply, pay13_apply, pay12_apply, pay9_apply, pay8_apply, pay7_apply, pay4_apply, pay3_apply,
    chunk0, chunk1, chunk2, chunk3, chunk4, chunk5, chunk6, chunk7]

/-- The zero tile at an entry. -/
theorem pay1_apply (j : S2048x128.Idx) : k1_pay1 (F := Ideal) j = 0 := by
  unfold k1_pay1
  simp only [shapeCast_self]
  show Ideal.ofBits .f32 0x00000000#32 = 0
  exact Ideal.ofBits_zero_f32

/-! ## The stored loss at a row -/

/-- The entry of row `p` that a sum along the lanes visits at step `k` is lane `k` of that row. -/
theorem lift_row (h : S2048x128.Reduces [1] S2048) (p : Fin 2048) (k : Fin 128) : h.lift (ix1 p) k = ix2 p k :=
  funext fun a => match a with
    | ⟨0, _⟩ => rfl
    | ⟨1, _⟩ => rfl

/-- A sum along the 128 lanes, from the zero word, read at row `p`: the row's entries added. -/
theorem lanesum_apply (v : FVec Ideal S2048x128 .f32) (h : S2048x128.Reduces [1] S2048) (hφ) (hacc) (p : Fin 2048) :
    multiReduction (F := Ideal) .add [1] S2048 v 0x00000000#32 h hφ hacc (ix1 p) = ∑ l : Fin 128, v (ix2 p l) := by
  refine (Ideal.multiReduction_add_single v _ h hφ hacc (ix1 p)).trans ?_
  exact Finset.sum_congr rfl fun k _ => congrArg v (lift_row h p k)

/-- Row `p` of the stored column: 0 − log(pos_p / (the 128 lanes of the accumulator's row p added + ε₈)). -/
theorem pay15_apply (acc : FVec Ideal S2048x128 .f32) (x2 : FVec Ideal S2048x1 .f32) (p : Fin 2048) (u : Fin 1) :
    k1_pay15 (F := Ideal) acc x2 (ix2 p u)
      = 0 - Ideal.log (Ideal.div (x2 (ix2 p u)) ((∑ l : Fin 128, acc (ix2 p l)) + Cert.Spec.eps8)) := by
  unfold k1_pay15
  simp only [shapeCast_self]
  show Ideal.ofBits .f32 0x00000000#32 - Ideal.log (Ideal.div (x2 (ix2 p u))
    (shapeCast S2048x1 (multiReduction (F := Ideal) .add [1] S2048 acc 0x00000000#32 reduces_S2048x128_S2048 (.inl rfl) rfl)
      shapeCasts_S2048_S2048x1 (ix2 p u) + Ideal.ofBits .f32 0x322BCC77#32)) = _
  rw [Ideal.ofBits_zero_f32, shapeCast_a_a1_apply]
  refine congrArg (fun z => 0 - Ideal.log (Ideal.div (x2 (ix2 p u)) (z + Ideal.ofBits .f32 0x322BCC77#32))) ?_
  exact lanesum_apply acc _ _ _ p

end Cert.KernelIdeal.Val1

end
-- ==== Proof.KI_Val1c.lean ====
/-
  The accumulator along the grid, and the stored loss. Point t is key block t mod 16 of row block t / 16. Entry
  (p, l) of the accumulator after point t is lane l of row (t / 16) · 2048 + p after t mod 16 + 1 key blocks: a first
  point steps the zero tile, every other point steps what the point before left, and a step adds the eight chunk terms of
  the key block, which are the terms of key rows (t mod 16) · 1024 + 128 · c + l. At a last point the accumulator is
  full, and the stored loss of a row is the loss formed from the lanes of its full accumulator.
-/
import proofs.«410407_j27642409517745_3_alg».proof.Proof.KI_Val1b
import proofs.«410407_j27642409517745_3_alg».proof.Proof.KI_Val1Blk
import proofs.«410407_j27642409517745_3_alg».proof.Proof.Spec
import proofs.«410407_j27642409517745_3_alg».proof.Proof.Law

set_option maxRecDepth 16384

noncomputable section

namespace Cert.KernelIdeal.Val1

open Cert.KernelIdeal.Gen Cert.KernelIdeal.Fr
open Idealize.ShloMosaic Idealize.ShloMosaic.TcCoe Idealize.SL.Sem
open Idealize.ShloMosaic.ValueIdx
open Cert.Spec (dir)
open Cert.Law (wsum kpos kterm col accStep acc ktot kloss kappa)

variable (V : (c : Dev nD) → (b : Ref sig .tc) → Buf (Elt Ideal) ((c : Thread nD τ).loc b))

/-- The three input blocks of a point, at their literal shapes. -/
abbrev b0 (c : Dev nD) (t : Fin cfg1.N) : FVec Ideal S2048x64 .bf16 := iblk1 V c 0 t
abbrev b1 (c : Dev nD) (t : Fin cfg1.N) : FVec Ideal S1024x64 .bf16 := iblk1 V c 1 t
abbrev b2 (c : Dev nD) (t : Fin cfg1.N) : FVec Ideal S2048x1 .f32 := iblk1 V c 2 t

/-! ## What each kind of point leaves, at an entry -/

theorem snd_A (c : Dev nD) (t : Fin cfg1.N) (h0 : t.val % 16 = 0) (h1 : ¬t.val % 16 = 15) (p : Fin 2048) (l : Fin 128) :
    (outsAt1 V c t.val t.isLt).2 (ix2 p l)
      = step (F := Ideal) (b0 V c t) (b1 V c t) (k1_pay1 (F := Ideal)) (ix2 p l) := by
  rw [outsAt1_A V c t h0 h1]
  dsimp only
  exact congrFun (sout_A (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) (ix2 p l)

theorem snd_B (c : Dev nD) (t : Fin cfg1.N) (h0 : ¬t.val % 16 = 0) (h1 : ¬t.val % 16 = 15) (p : Fin 2048) (l : Fin 128) :
    (outsAt1 V c t.val t.isLt).2 (ix2 p l)
      = step (F := Ideal) (b0 V c t) (b1 V c t) (outsAt1 V c (t.val - 1) (Nat.lt_of_le_of_lt (Nat.sub_le _ _) t.isLt)).2 (ix2 p l) := by
  rw [outsAt1_B V c t h0 h1]
  dsimp only
  exact congrFun (sout_B (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) (ix2 p l)

theorem snd_C (c : Dev nD) (t : Fin cfg1.N) (h0 : ¬t.val % 16 = 0) (h1 : t.val % 16 = 15) (p : Fin 2048) (l : Fin 128) :
    (outsAt1 V c t.val t.isLt).2 (ix2 p l)
      = step (F := Ideal) (b0 V c t) (b1 V c t) (outsAt1 V c (t.val - 1) (Nat.lt_of_le_of_lt (Nat.sub_le _ _) t.isLt)).2 (ix2 p l) := by
  rw [outsAt1_C V c t h0 h1]
  dsimp only
  exact congrFun (sout_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p l)

theorem fst_C (c : Dev nD) (t : Fin cfg1.N) (h0 : ¬t.val % 16 = 0) (h1 : t.val % 16 = 15) (p : Fin 2048) :
    (outsAt1 V c t.val t.isLt).1 (ix2 p (0 : Fin 1))
      = k1_pay15 (F := Ideal) (step (F := Ideal) (b0 V c t) (b1 V c t) (outsAt1 V c (t.val - 1) (Nat.lt_of_le_of_lt (Nat.sub_le _ _) t.isLt)).2) (b2 V c t) (ix2 p (0 : Fin 1)) := by
  rw [outsAt1_C V c t h0 h1]
  dsimp only
  exact congrFun (out_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p (0 : Fin 1))

/-! ## A step, in the law's terms -/

theorem acc_succ (U I : Cert.Spec.Tbl) (q : Fin 16384) (l : Fin 128) (n : ℕ) (h : n < 16) :
    acc U I q l (n + 1) = accStep U I q l ⟨n, h⟩ (acc U I q l n) := by
  rw [acc, dif_pos h]

theorem acc_congr (U I : Cert.Spec.Tbl) (l : Fin 128) {q q' : Fin 16384} {m m' : ℕ} (hq : q.val = q'.val) (hm : m = m') :
    acc U I q l m = acc U I q' l m' := by
  obtain rfl : q = q' := Fin.ext hq
  subst hm
  rfl

/-- A chunk term of a row block and a key block is the law's term of the row and the chunk's key row. -/
theorem cterm_eq (U I : Cert.Spec.Tbl) (x0 : FVec Ideal S2048x64 .bf16) (x1 : FVec Ideal S1024x64 .bf16)
    (q : Fin 16384) (kb : Fin 16) (p : Fin 2048) (l : Fin 128)
    (hx0 : ∀ d : Fin 64, x0 (ix2 p d) = dir U q d)
    (hx1 : ∀ (j : Fin 1024) (d : Fin 64) (hj : kb.val * 1024 + j.val < 16384),
      x1 (ix2 j d) = wsum U I ⟨kb.val * 1024 + j.val, hj⟩ d)
    (c : Fin 8) : cterm x0 x1 p c l = kterm U I q (col kb c l) := by
  have hc : c.val * 128 + l.val < 1024 := by have := c.isLt; have := l.isLt; omega
  have hb : kb.val * 1024 + (c.val * 128 + l.val) < 16384 := by have := kb.isLt; omega
  have e : (⟨kb.val * 1024 + (c.val * 128 + l.val), hb⟩ : Fin 16384) = col kb c l :=
    Fin.ext (by show kb.val * 1024 + (c.val * 128 + l.val) = kb.val * 1024 + c.val * 128 + l.val; omega)
  unfold cterm kterm
  refine congrArg (fun z => Ideal.exp (z * kappa)) (Finset.sum_congr rfl fun d _ => ?_)
  rw [hx0 d, hx1 ⟨c.val * 128 + l.val, hc⟩ d hb, e]

/-- A step at an entry is the law's step of the row's lane. -/
theorem step_row (U I : Cert.Spec.Tbl) (x0 : FVec Ideal S2048x64 .bf16) (x1 : FVec Ideal S1024x64 .bf16)
    (a : FVec Ideal S2048x128 .f32) (q : Fin 16384) (kb : Fin 16) (p : Fin 2048) (l : Fin 128) (A : EReal)
    (hx0 : ∀ d : Fin 64, x0 (ix2 p d) = dir U q d)
    (hx1 : ∀ (j : Fin 1024) (d : Fin 64) (hj : kb.val * 1024 + j.val < 16384),
      x1 (ix2 j d) = wsum U I ⟨kb.val * 1024 + j.val, hj⟩ d)
    (ha : a (ix2 p l) = A) :
    step (F := Ideal) x0 x1 a (ix2 p l) = accStep U I q l kb A := by
  rw [step_apply, ha]
  simp only [cterm_eq U I x0 x1 q kb p l hx0 hx1]
  rfl

/-! ## The accumulator after every point -/

theorem acc_inv (c : Dev nD) (U I : Cert.Spec.Tbl)
    (h0 : ∀ (r : Fin 16384) (d : Fin 64), V c main_v0_0 (ix2 r d) = dir U r d)
    (h1 : ∀ (r : Fin 16384) (d : Fin 64), V c main_v0_1 (ix2 r d) = wsum U I r d) :
    ∀ (n : ℕ) (hn : n < cfg1.N) (p : Fin 2048) (l : Fin 128) (hr : (n / 16) * 2048 + p.val < 16384),
      (outsAt1 V c n hn).2 (ix2 p l) = acc U I ⟨(n / 16) * 2048 + p.val, hr⟩ l (n % 16 + 1) := by
  intro n
  induction n using Nat.strong_induction_on with
  | _ n ih =>
    intro hn p l hr
    have hk : n % 16 < 16 := Nat.mod_lt _ (by norm_num)
    have hx0 : ∀ d : Fin 64, b0 V c ⟨n, hn⟩ (ix2 p d) = dir U ⟨(n / 16) * 2048 + p.val, hr⟩ d := fun d =>
      (Cert.KernelIdeal.Val.blk0_apply V c ⟨n, hn⟩ p d hr).trans (h0 _ d)
    have hx1 : ∀ (j : Fin 1024) (d : Fin 64) (hj : (⟨n % 16, hk⟩ : Fin 16).val * 1024 + j.val < 16384),
        b1 V c ⟨n, hn⟩ (ix2 j d) = wsum U I ⟨(⟨n % 16, hk⟩ : Fin 16).val * 1024 + j.val, hj⟩ d := fun j d hj =>
      (Cert.KernelIdeal.Val.blk1_apply V c ⟨n, hn⟩ j d hj).trans (h1 _ d)
    rw [acc_succ U I _ l (n % 16) hk]
    by_cases hA : n % 16 = 0
    · have hB : ¬ n % 16 = 15 := by omega
      have hz0 : acc U I ⟨(n / 16) * 2048 + p.val, hr⟩ l (n % 16) = 0 := by rw [hA]; rfl
      rw [hz0, snd_A V c ⟨n, hn⟩ hA hB p l]
      exact step_row U I (b0 V c ⟨n, hn⟩) (b1 V c ⟨n, hn⟩) (k1_pay1 (F := Ideal)) ⟨(n / 16) * 2048 + p.val, hr⟩
        ⟨n % 16, hk⟩ p l 0 hx0 hx1 (pay1_apply _)
    · have e1 : (n - 1) / 16 = n / 16 := by omega
      have e2 : (n - 1) % 16 + 1 = n % 16 := by omega
      have hn' : n - 1 < cfg1.N := Nat.lt_of_le_of_lt (Nat.sub_le _ _) hn
      have hr' : ((n - 1) / 16) * 2048 + p.val < 16384 := by rw [e1]; exact hr
      have hAcc : (outsAt1 V c (n - 1) hn').2 (ix2 p l) = acc U I ⟨(n / 16) * 2048 + p.val, hr⟩ l (n % 16) :=
        (ih (n - 1) (by omega) hn' p l hr').trans
          (acc_congr U I l (by show (n - 1) / 16 * 2048 + p.val = n / 16 * 2048 + p.val; rw [e1]) e2)
      by_cases hC : n % 16 = 15
      · rw [snd_C V c ⟨n, hn⟩ hA hC p l]
        exact step_row U I (b0 V c ⟨n, hn⟩) (b1 V c ⟨n, hn⟩) (outsAt1 V c (n - 1) hn').2 ⟨(n / 16) * 2048 + p.val, hr⟩
          ⟨n % 16, hk⟩ p l _ hx0 hx1 hAcc
      · rw [snd_B V c ⟨n, hn⟩ hA hC p l]
        exact step_row U I (b0 V c ⟨n, hn⟩) (b1 V c ⟨n, hn⟩) (outsAt1 V c (n - 1) hn').2 ⟨(n / 16) * 2048 + p.val, hr⟩
          ⟨n % 16, hk⟩ p l _ hx0 hx1 hAcc

/-! ## The stored loss at a last point -/

theorem last_row (c : Dev nD) (U I : Cert.Spec.Tbl)
    (h0 : ∀ (r : Fin 16384) (d : Fin 64), V c main_v0_0 (ix2 r d) = dir U r d)
    (h1 : ∀ (r : Fin 16384) (d : Fin 64), V c main_v0_1 (ix2 r d) = wsum U I r d)
    (h2 : ∀ (r : Fin 16384), V c main_v0_2 (ix2 r (0 : Fin 1)) = kpos U I r)
    (t : Fin cfg1.N) (ht : t.val % 16 = 15) (p : Fin 2048) (hr : (t.val / 16) * 2048 + p.val < 16384) :
    (outsAt1 V c t.val t.isLt).1 (ix2 p (0 : Fin 1)) = kloss U I ⟨(t.val / 16) * 2048 + p.val, hr⟩ := by
  have hne : ¬ t.val % 16 = 0 := by omega
  have hs : ∀ l : Fin 128, step (F := Ideal) (b0 V c t) (b1 V c t) (outsAt1 V c (t.val - 1) (Nat.lt_of_le_of_lt (Nat.sub_le _ _) t.isLt)).2 (ix2 p l)
      = acc U I ⟨(t.val / 16) * 2048 + p.val, hr⟩ l 16 := fun l =>
    (snd_C V c t hne ht p l).symm.trans
      ((acc_inv V c U I h0 h1 t.val t.isLt p l hr).trans (acc_congr U I l rfl (by omega)))
  have hx2 : b2 V c t (ix2 p (0 : Fin 1)) = kpos U I ⟨(t.val / 16) * 2048 + p.val, hr⟩ :=
    (Cert.KernelIdeal.Val.blk2_apply V c t p hr).trans (h2 _)
  rw [fst_C V c t hne ht p, pay15_apply, hx2]
  simp only [hs]
  rfl

end Cert.KernelIdeal.Val1

end
-- ==== Proof.KI_Val1.lean ====
/-
  What the second pallas_call leaves in the loss column, entry by entry, at the ideal instance, given what its three
  input arrays hold: row r's loss is 0 − log(pos_r / (Σ over the 128 lanes of the full accumulator + ε₈)), the
  accumulator of a row block being cleared at its first key block and, at every key block, taking the eight chunk
  terms exp((û_r · ŵ_k) · inv_tau) in order.
-/
import proofs.«410407_j27642409517745_3_alg».proof.Proof.KI_R1
import proofs.«410407_j27642409517745_3_alg».proof.Proof.KI_Val1Blk
import proofs.«410407_j27642409517745_3_alg».proof.Proof.KI_Val1c
import proofs.«410407_j27642409517745_3_alg».proof.Proof.Spec
import proofs.«410407_j27642409517745_3_alg».proof.Proof.Law
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val

open Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem loss_apply (c : Dev nD) (U I : Cert.Spec.Tbl)
    (h0 : ∀ (r : Fin 16384) (d : Fin 64), V c main_v0_0 (ValueIdx.ix2 r d) = Cert.Spec.dir U r d)
    (h1 : ∀ (r : Fin 16384) (d : Fin 64), V c main_v0_1 (ValueIdx.ix2 r d) = Cert.Law.wsum U I r d)
    (h2 : ∀ (r : Fin 16384), V c main_v0_2 (ValueIdx.ix2 r (0 : Fin 1)) = Cert.Law.kpos U I r)
    (r : Fin 16384) :
    (dat1 V c).arrAt 3 cfg1.N (ValueIdx.ix2 r (0 : Fin 1)) = Cert.Law.kloss U I r :=
  final3 V c (fun r => Cert.Law.kloss U I r)
    (fun t ht p hr => Cert.KernelIdeal.Val1.last_row V c U I h0 h1 h2 t ht p hr) r

end Cert.KernelIdeal.Val

end
-- ==== Proof.KI_Val.lean ====
/-
  The idealized kernel's result: on finite tables the result buffer ends at the specification's mean loss.
-/
import proofs.«410407_j27642409517745_3_alg».proof.Proof.KI_ValAsm
import proofs.«410407_j27642409517745_3_alg».proof.Proof.KI_Val0
import proofs.«410407_j27642409517745_3_alg».proof.Proof.KI_Val1

set_option maxRecDepth 16384

noncomputable section

namespace Cert.KernelIdeal.Val

open Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ)

/-- The three arrays the second call reads are what the first call left: the unit user rows, the folded key rows, the
    positive scores. So its loss column is the rows' losses, the host's mean is the kernel's arrangement of the mean
    loss, and on finite tables that is the specification. -/
theorem result_value (c : Dev nD)
    (hU : ∀ i, ∃ x : ℝ, m ((c.tc : Thread nD τ).loc main_arg0) i = (x : EReal))
    (hI : ∀ i, ∃ x : ℝ, m ((c.tc : Thread nD τ).loc main_arg1) i = (x : EReal)) :
    W3 m c (Proc.devRef .tc main_v3)
      = fun _ => Cert.Spec.result (Cert.Spec.tbl (m ((c.tc : Thread nD τ).loc main_arg0))) (Cert.Spec.tbl (m ((c.tc : Thread nD τ).loc main_arg1))) := by
  have h0 : ∀ (r : Fin 16384) (d : Fin 64), Vr1 m c main_v0_0 (ValueIdx.ix2 r d) = Cert.Spec.dir (tU (Vr0 m) c) r d :=
    fun r d => (congrFun (W1_arr m c 2) (ValueIdx.ix2 r d)).trans (un_apply (Vr0 m) c r d)
  have h1 : ∀ (r : Fin 16384) (d : Fin 64), Vr1 m c main_v0_1 (ValueIdx.ix2 r d) = Cert.Law.wsum (tU (Vr0 m) c) (tI (Vr0 m) c) r d :=
    fun r d => (congrFun (W1_arr m c 3) (ValueIdx.ix2 r d)).trans (w_apply (Vr0 m) c r d)
  have h2 : ∀ (r : Fin 16384), Vr1 m c main_v0_2 (ValueIdx.ix2 r (0 : Fin 1)) = Cert.Law.kpos (tU (Vr0 m) c) (tI (Vr0 m) c) r :=
    fun r => (congrFun (W1_arr m c 4) (ValueIdx.ix2 r (0 : Fin 1))).trans (pos_apply (Vr0 m) c r)
  rw [result_value_of m c (tU (Vr0 m) c) (tI (Vr0 m) c) (fun r => loss_apply (Vr1 m) c _ _ h0 h1 h2 r)]
  funext _
  exact Cert.Law.kresult_eq _ _ (fun r d => hU (ValueIdx.ix2 r d)) (fun r d => hI (ValueIdx.ix2 r d))

end Cert.KernelIdeal.Val

end
-- ==== Proof.RefValue.lean ====
/-
  The reference program's result, read one operation at a time, is the loss of the specification.
  Each stage of the reference is read at an index built from coordinates; the composed index maps of the
  broadcasts, the transposes, the two contractions and the row sums send (q, k, d) to the table entries the
  specification names, and the four sums that start from the zero word are the plain sums (0 + s = s).
  No algebra beyond that: the reference divides by the temperature exactly as the specification does.
-/
import proofs.«410407_j27642409517745_3_alg».proof.Proof.Gen.ReferenceIdeal.Run
import proofs.«410407_j27642409517745_3_alg».proof.Proof.Gen.ReferenceIdeal.Read
import proofs.«410407_j27642409517745_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec (tbl nrm dir pos tot loss result)

/-! ## The guarded norm and the unit rows -/

/-- The guarded norm of row `r` of the first table, as the reference computes it. -/
theorem nrm_arg0 (x : FVec Ideal S16384x64 .f32) (r : Fin 16384) (z : Fin 1) :
    val_main_v5 (F := Ideal) x (ix2 r z) = nrm (tbl x) r := by
  have e : ∀ k : Fin 64, idx_main_v1 (idx_main_v2 (ix2 r z)) k = ix2 r k := fun k =>
    funext fun a => by match a with | ⟨0, _⟩ => rfl | ⟨1, _⟩ => rfl
  rw [val_main_v5_apply, val_main_v3_apply, val_main_v2_apply, val_main_v1_apply, val_main_v4_apply,
    val_main_cst_0_apply, val_main_cst_apply]
  simp only [e, val_main_v0_apply, Ideal.hostUnary_sqrt_def, Ideal.maximumf_def, Ideal.mulf_def, Ideal.ofBits_def,
    Ideal.ofBits_zero_f32, zero_add]
  rfl

/-- The guarded norm of row `r` of the second table. -/
theorem nrm_arg1 (x : FVec Ideal S16384x64 .f32) (r : Fin 16384) (z : Fin 1) :
    val_main_v13 (F := Ideal) x (ix2 r z) = nrm (tbl x) r := by
  have e : ∀ k : Fin 64, idx_main_v9 (idx_main_v10 (ix2 r z)) k = ix2 r k := fun k =>
    funext fun a => by match a with | ⟨0, _⟩ => rfl | ⟨1, _⟩ => rfl
  rw [val_main_v13_apply, val_main_v11_apply, val_main_v10_apply, val_main_v9_apply, val_main_v12_apply,
    val_main_cst_2_apply, val_main_cst_1_apply]
  simp only [e, val_main_v8_apply, Ideal.hostUnary_sqrt_def, Ideal.maximumf_def, Ideal.mulf_def, Ideal.ofBits_def,
    Ideal.ofBits_zero_f32, zero_add]
  rfl

/-- Entry (r, d) of the first table's unit rows. -/
theorem dir_arg0 (x : FVec Ideal S16384x64 .f32) (r : Fin 16384) (d : Fin 64) :
    val_main_v7 (F := Ideal) x (ix2 r d) = dir (tbl x) r d := by
  have e : idx_main_v6 (ix2 r d) = ix2 r (0 : Fin 1) :=
    funext fun a => by match a with | ⟨0, _⟩ => rfl | ⟨1, _⟩ => rfl
  rw [val_main_v7_apply, val_main_v6_apply, e, nrm_arg0, Ideal.hostDivf_def]
  rfl

/-- Entry (r, d) of the second table's unit rows. -/
theorem dir_arg1 (x : FVec Ideal S16384x64 .f32) (r : Fin 16384) (d : Fin 64) :
    val_main_v15 (F := Ideal) x (ix2 r d) = dir (tbl x) r d := by
  have e : idx_main_v14 (ix2 r d) = ix2 r (0 : Fin 1) :=
    funext fun a => by match a with | ⟨0, _⟩ => rfl | ⟨1, _⟩ => rfl
  rw [val_main_v15_apply, val_main_v14_apply, e, nrm_arg1, Ideal.hostDivf_def]
  rfl

/-! ## The positive score -/

theorem pos_eq (x0 x1 : FVec Ideal S16384x64 .f32) (q : Fin 16384) :
    val_main_v20 (F := Ideal) x0 x1 (ix1 q) = pos (tbl x0) (tbl x1) q := by
  have e : ∀ k : Fin 64, idx_main_v17 (ix1 q) k = ix2 q k := fun k =>
    funext fun a => by match a with | ⟨0, _⟩ => rfl | ⟨1, _⟩ => rfl
  rw [val_main_v20_apply, val_main_v19_apply, val_main_v17_apply, val_main_v18_apply, val_main_cst_4_apply,
    val_main_cst_3_apply]
  simp only [e, val_main_v16_apply, dir_arg0, dir_arg1, Ideal.hostUnary_exp_def, Ideal.hostDivf_def, Ideal.mulf_def,
    Ideal.ofBits_def, Ideal.ofBits_zero_f32, zero_add]
  rfl

/-! ## The partition sum -/

/-- Entry (q, k) of the first contraction: row q of the first table's unit rows against row k of the second's. -/
theorem dot_ui (x0 x1 : FVec Ideal S16384x64 .f32) (q k : Fin 16384) :
    val_main_v22 (F := Ideal) x0 x1 (ix2 q k) = ∑ d, dir (tbl x0) q d * dir (tbl x1) k d := by
  have el : ∀ d : Fin 64, lidx_main_v22 (ix2 q k) d = ix2 q d := fun d =>
    funext fun a => by match a with | ⟨0, _⟩ => rfl | ⟨1, _⟩ => rfl
  have er : ∀ d : Fin 64, idx_main_v21 (ridx_main_v22 (ix2 q k) d) = ix2 k d := fun d =>
    funext fun a => by match a with | ⟨0, _⟩ => rfl | ⟨1, _⟩ => rfl
  rw [val_main_v22_apply]
  simp only [val_main_v21_apply, el, er, dir_arg0, dir_arg1]

/-- Entry (q, k) of the second contraction: row q of the first table's unit rows against its own row k. -/
theorem dot_uu (x0 : FVec Ideal S16384x64 .f32) (q k : Fin 16384) :
    val_main_v24 (F := Ideal) x0 (ix2 q k) = ∑ d, dir (tbl x0) q d * dir (tbl x0) k d := by
  have el : ∀ d : Fin 64, lidx_main_v24 (ix2 q k) d = ix2 q d := fun d =>
    funext fun a => by match a with | ⟨0, _⟩ => rfl | ⟨1, _⟩ => rfl
  have er : ∀ d : Fin 64, idx_main_v23 (ridx_main_v24 (ix2 q k) d) = ix2 k d := fun d =>
    funext fun a => by match a with | ⟨0, _⟩ => rfl | ⟨1, _⟩ => rfl
  rw [val_main_v24_apply]
  simp only [val_main_v23_apply, el, er, dir_arg0]

theorem tot_eq (x0 x1 : FVec Ideal S16384x64 .f32) (q : Fin 16384) :
    val_main_v29 (F := Ideal) x0 x1 (ix1 q) = tot (tbl x0) (tbl x1) q := by
  have e : ∀ k : Fin 16384, idx_main_v29 (ix1 q) k = ix2 q k := fun k =>
    funext fun a => by match a with | ⟨0, _⟩ => rfl | ⟨1, _⟩ => rfl
  rw [val_main_v29_apply, val_main_cst_6_apply]
  simp only [e, val_main_v28_apply, val_main_v27_apply, val_main_v25_apply, val_main_v26_apply, val_main_cst_5_apply,
    dot_ui, dot_uu, Ideal.hostUnary_exp_def, Ideal.hostDivf_def, Ideal.addf_def, Ideal.ofBits_def,
    Ideal.ofBits_zero_f32, zero_add]
  rfl

/-! ## The loss of a row and the mean -/

theorem loss_eq (x0 x1 : FVec Ideal S16384x64 .f32) (q : Fin 16384) :
    val_main_v34 (F := Ideal) x0 x1 (ix1 q) = loss (tbl x0) (tbl x1) q := by
  rw [val_main_v34_apply, val_main_v33_apply, val_main_v32_apply, val_main_v31_apply, val_main_v30_apply,
    val_main_cst_7_apply, pos_eq, tot_eq]
  simp only [Ideal.hostNegf_def, Ideal.negf_def, Ideal.hostUnary_log_def, Ideal.hostDivf_def, Ideal.addf_def,
    Ideal.ofBits_def]
  rfl

/-- A rank-1 index set is its coordinate's range. -/
def idxEquiv1 : S16384.Idx ≃ Fin 16384 where
  toFun i := i 0
  invFun q := ix1 q
  left_inv i := (eq_ix1 i).symm
  right_inv _ := rfl

/-- The reference's result is the specification's mean loss. -/
theorem result_eq (x0 x1 : FVec Ideal S16384x64 .f32) :
    val_main_v36 (F := Ideal) x0 x1 = fun _ => result (tbl x0) (tbl x1) := by
  funext i
  rw [val_main_v36_apply, val_main_v35_apply, val_main_cst_9_apply, val_main_cst_8_apply,
    ← Equiv.sum_comp idxEquiv1.symm]
  simp only [Ideal.hostDivf_def, Ideal.ofBits_def, Ideal.ofBits_zero_f32, zero_add]
  have e : ∀ q : Fin 16384, val_main_v34 (F := Ideal) x0 x1 (idxEquiv1.symm q) = loss (tbl x0) (tbl x1) q :=
    fun q => loss_eq x0 x1 q
  simp only [e]
  rfl

end Cert.ReferenceIdeal.RefValue

end
-- ==== Proof.Finite.lean ====
/-
  From the printed finiteness precondition to "every entry of both tables is a real number".
  The precondition is the conjunction of two conjunctions over all entries: |x| < +∞ for every entry x of
  the first table, and the same for the second. An extended real whose absolute value max x (−x) lies strictly
  below the top element is neither infinity, hence the image of a real.
-/
import proofs.«410407_j27642409517745_3_alg».proof.Pre_finite_inputs
import proofs.«410407_j27642409517745_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has exactly one index. -/
instance : Subsingleton S_.Idx := ⟨fun a b => funext fun d => d.elim0⟩

/-- The f32 word of +∞ denotes the top element. -/
theorem inf_word : Ideal.ofBits .f32 0x7F800000#32 = (⊤ : EReal) := by simp [Ideal.ofBits, Ideal.ieee]

/-- An extended real whose absolute value compares strictly below +∞ is a real. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

/-- Under the finiteness precondition every entry of either table is a real. -/
theorem real_of_pre (x0 x1 : FVec Ideal Cert.Pre_finite_inputs.S16384x64 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt (x0 i) (Host.reduce_andi_all _ _ _ _ _ ha i)
  · exact real_of_abs_lt (x1 i) (Host.reduce_andi_all _ _ _ _ _ hb i)

end Cert.Finite

end
-- ==== Proof.lean ====
/-
  A contrastive loss over two 16384 x 64 embedding tables U (users) and I (positive items). Rows are scaled to unit
  length, û = u / max(‖u‖, ε₁₂); row q's positive score is exp((û_q · î_q) / τ), its partition sum
  Σ_k exp((û_q · î_k + û_q · û_k) / τ), its loss −log(pos_q / (tot_q + ε₈)); the result is the mean loss.

  The reference computes exactly that on the host. The kernel runs two pallas_calls. The first normalises 2048-row
  blocks and writes û, ŵ = û + î and the positive scores, multiplying by the reciprocal temperature where the reference
  divides by the temperature: the certificate names that f32 word 1/τ exactly (τ the reference's own f32 word), under
  which x · (1/τ) = x / τ on every extended real. The second folds the two score matrices into one product
  û_q · ŵ_k — on finite tables every entry of û and î is a real number, so the product distributes over ŵ's sum —
  and adds a row's 16384 terms in another order (16 key blocks of 8 chunks of 128 columns, accumulated lane by lane
  in a scratch buffer carried across the key blocks, the 128 lanes summed at the last key block); a finite sum of
  extended reals does not depend on the order. The mean is taken on the host in both programs.

  The three frames: each program runs to the end from any memory, faults nowhere and leaves the two tables as
  launched — for the two kernel programs by running each pallas_call's body at every grid point (the second call's
  accumulator carried by the invariant between points) and chaining the two calls and the host lines; for the
  reference by its run read back. The idealization's one rewrite, at nine sites, is the named constant.
-/
import proofs.«410407_j27642409517745_3_alg».proof.Defs
import proofs.«410407_j27642409517745_3_alg».proof.Proof.Gen.Kernel
import proofs.«410407_j27642409517745_3_alg».proof.Proof.Gen.KernelIdeal
import proofs.«410407_j27642409517745_3_alg».proof.Proof.Gen.ReferenceIdeal
import proofs.«410407_j27642409517745_3_alg».proof.Proof.Gen.Pre_finite_inputs
import proofs.«410407_j27642409517745_3_alg».proof.Proof.Gen.ReferenceIdeal.Run
import proofs.«410407_j27642409517745_3_alg».proof.Proof.Gen.ReferenceIdeal.Read
import proofs.«410407_j27642409517745_3_alg».proof.Proof.K_Run
import proofs.«410407_j27642409517745_3_alg».proof.Proof.KI_Run
import proofs.«410407_j27642409517745_3_alg».proof.Proof.KI_Val
import proofs.«410407_j27642409517745_3_alg».proof.Proof.RefValue
import proofs.«410407_j27642409517745_3_alg».proof.Proof.Finite
import Idealize.ShloMosaic.PureOps.IdealRules

noncomputable section

namespace Cert.Proof

open Idealize.ShloMosaic Idealize.ShloMosaic.TcCoe Idealize.SL.Sem

/-- The word-level kernel runs and leaves the tables as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- So does the reference: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The named word denotes, at the ideal instance, the rational the certificate's table gives it. -/
theorem named_site : IdealRules.named_const.Statement Cert.KernelIdeal.κ "inv_tau" .f32 0x40649249#32 ((33554432 / 9395241 : ℝ) : EReal) :=
  IdealRules.named_const.statement Cert.KernelIdeal.κ "inv_tau" .f32 0x40649249#32 ((33554432 / 9395241 : ℝ) : EReal) rfl

/-- The idealization's nine rewrites are that one fact, once per site. -/
theorem preserves : Cert.preserves_Kernel_KernelIdeal :=
  ⟨named_site, named_site, named_site, named_site, named_site, named_site, named_site, named_site, named_site⟩

/-- From memories agreeing on the two tables, both idealized programs end with the specification's mean loss of the
    kernel's tables in their result buffers. -/
theorem algebraic : Cert.algebraic_KernelIdeal_ReferenceIdeal := by
  intro m ρ m' ρ' hpre hagree
  refine ⟨fun c => fun _ => Cert.Spec.result
      (Cert.Spec.tbl (m ((c.tc : Thread Cert.KernelIdeal.nD Cert.KernelIdeal.τ).loc Cert.KernelIdeal.main_arg0)))
      (Cert.Spec.tbl (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩) (Cert.KernelIdeal.Fr.run_main (F := Ideal) m ρ)
    have hfin := Cert.Finite.real_of_pre _ _ (hpre c)
    exact Cert.KernelIdeal.Val.result_value m c hfin.1 hfin.2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, Cert.ReferenceIdeal.RefValue.result_eq, (hagree c).1, (hagree c).2]
    rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
